-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x8192 .f32) (main_arg1 : FVec F S8192x64 .f32) (main_arg2 : FVec F S8192x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  main_v13
-- ==== Kernel.lean ====
abbrev S8192x8192 : Shape := ⟨2, ![8192, 8192]⟩
abbrev S8192x64 : Shape := ⟨2, ![8192, 64]⟩
abbrev S8192x128 : Shape := ⟨2, ![8192, 128]⟩
abbrev S1024x2048 : Shape := ⟨2, ![1024, 2048]⟩
abbrev S2048x128 : Shape := ⟨2, ![2048, 128]⟩
abbrev S1024x128 : Shape := ⟨2, ![1024, 128]⟩
abbrev S1024x64 : Shape := ⟨2, ![1024, 64]⟩

abbrev nBuf : Space → Nat
  | .hbm => 6
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .f32⟩
  | .hbm, ⟨3, _⟩ => ⟨S8192x128, .f32⟩
  | .hbm, ⟨4, _⟩ => ⟨S8192x128, .f32⟩
  | .hbm, ⟨5, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x2048, .f32⟩
  | .local _ .vmem, ⟨8, _⟩ => ⟨S1024x2048, .f32⟩
  | .local _ .vmem, ⟨9, _⟩ => ⟨S2048x128, .f32⟩
  | .local _ .vmem, ⟨10, _⟩ => ⟨S2048x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S8192x64_S8192x64_S8192x128_d1 : Shape.Concatenates [S8192x64, S8192x64] S8192x128 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S1024x128_o0_0_S1024x64 : S1024x128.Slices ![0, 0] S1024x64
  slices_S1024x128_o0_64_S1024x64 : S1024x128.Slices ![0, 64] S1024x64
  concatenates_S1024x64_S1024x64_S1024x128_d1 : Shape.Concatenates [S1024x64, S1024x64] S1024x128 1
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩
abbrev S_ : Shape := ⟨0, ![]⟩
abbrev S8192x128 : Shape := ⟨2, ![8192, 128]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S_, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call1_cst : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  concatenates_S8192x64_S8192x64_S8192x128_d1 : Shape.Concatenates [S8192x64, S8192x64] S8192x128 1
  dot_S8192x8192_S8192x64_S8192x64_1_0_0_1_n_n_wf : DotDims.WF S8192x8192 S8192x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.R0.Base.lean ====
/-
  One matmul-with-half-relu region of @main: the part every case of its body shares.
  The region is entered with the TensorCore's buffers at contents `V` (a parameter). Its grid has 32 points
  t = 4·i + k (i < 8 row blocks of A, k < 4 column blocks). At a point the body sees: window 0, the
  1024×2048 block (i, k) of A; window 1, the 2048×128 block k of the right operand; window 2, the
  1024×128 output block i; and a 1024×128 scratch accumulator carried from point to point.
  Three cases, by k: k = 0 resets the scratch and accumulates; k = 1, 2 accumulate; k = 3 accumulates
  and stores the output block. Here: the blocks read off `V`, the two branch conditions decided over the
  grid, where the output window is idle, and the names of the memrefs the body is called with.
-/
import proofs.«164028_j19327352832008_1_alg».proof.Proof.Gen.Kernel.Launch
import proofs.«164028_j19327352832008_1_alg».proof.Proof.Gen.Kernel.Skeleton
import proofs.«164028_j19327352832008_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds the A block of the point, whether it was fetched at this
    point or kept from the one before: for any proof data whose array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, the right operand's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, over the grid -/

/-- "k = 0": the reset of the accumulator is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3": the output block is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where k ≠ 3 nothing is stored into the output block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where k = 3 the output block is stored. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024x128 .f32 := (Memref.whole cc0_stg2_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x128 .f32 := Memref.whole cc0_scratch0
abbrev VS0_0 : View sig .tc .vmem S1024x128 .f32 := scM0_0.view

end Cert.Kernel.Fr

end
-- ==== Proof.K.R0.RunA.lean ====
/-
  This region's body at a point with k = 0: the accumulator (at any contents) is overwritten with zeros, then
  with zeros + (A block)·(right block); the output block is left as found. The stores' pieces are found by the run.
-/
import proofs.«164028_j19327352832008_1_alg».proof.Proof.K.R0.Base

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_relu_half_kernel i arg2 harg2 arg3 harg3 arg4 harg4 arg5 harg5) K } := by
  refine ⟨[], ?_, fun xi2 E K => ?run⟩
  case run =>
    simp only [cc0__matmul_relu_half_kernel_eq_skeleton]; unfold cc0__matmul_relu_half_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.R0.RunB.lean ====
/-
  This region's body at a point with k = 1 or 2: the accumulator, holding `xs0`, is overwritten with
  xs0 + (A block)·(right block); the output block is left as found. The stores' pieces are found by the run.
-/
import proofs.«164028_j19327352832008_1_alg».proof.Proof.K.R0.RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_relu_half_kernel i arg2 harg2 arg3 harg3 arg4 harg4 arg5 harg5) K } := by
  refine ⟨[], ?_, fun xi2 E K => ?run⟩
  case run =>
    simp only [cc0__matmul_relu_half_kernel_eq_skeleton]; unfold cc0__matmul_relu_half_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.R0.RunC.lean ====
/-
  This region's body at a point with k = 3: the accumulator, holding `xs0`, is overwritten with
  xs0 + (A block)·(right block), read back, and the output block (at any contents) is overwritten with its
  left 64 columns clamped below at zero beside its right 64 columns. The stores' pieces are found by the run.
-/
import proofs.«164028_j19327352832008_1_alg».proof.Proof.K.R0.RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_relu_half_kernel i arg2 harg2 arg3 harg3 arg4 harg4 arg5 harg5) K } := by
  refine ⟨?_, ?_, fun E K => ?run⟩
  case run =>
    simp only [cc0__matmul_relu_half_kernel_eq_skeleton]; unfold cc0__matmul_relu_half_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.R0.Scoped.lean ====
/-
  Region 0's invariant before its first point, taken apart: the launch hands the region every scoped buffer that
  no window of it stages, each at some contents, beside the generator register. Of these the region's accumulator
  is named; the rest (the other region's staging buffers and accumulator) ride along untouched.
-/
import proofs.«164028_j19327352832008_1_alg».proof.Proof.K.R0.Base

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers region 0 never touches, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

theorem PhiA0_split (c : Dev nD) :
    (Pipeline.ΦA spec0 c : sProp 𝕄) ⊢ iprop(iprop((∃ d, owns (c : Thread nD τ) scM0_0 fullShare d) ∗ Rest0 c) ∗ (∃ r, prngReg c r)) :=
  Entails.of_eq (PhiA0_eq c)

theorem PhiA0_join (c : Dev nD) :
    (iprop(iprop((∃ d, owns (c : Thread nD τ) scM0_0 fullShare d) ∗ Rest0 c) ∗ (∃ r, prngReg c r)) : sProp 𝕄) ⊢ Pipeline.ΦA spec0 c :=
  Entails.of_eq (PhiA0_eq c).symm

end Cert.Kernel.Fr

end
-- ==== Proof.K.R0.Data.lean ====
/-
  The region's proof data, entered at contents `V`.
  What each case of the body leaves in the accumulator (and, at k = 3, in the output block) is read back from
  the pieces its run found. `accAt0 n` is what the accumulator holds after point n, by recursion on the
  point: a reset-and-add at k = 0, an add over what the point before left otherwise. The output block after a
  point with k = 3 is that case's store over the accumulator the point before left. The region invariant
  holds the accumulator at `accAt0` between points. Then the body obligation, case by case.
-/
import proofs.«164028_j19327352832008_1_alg».proof.Proof.K.R0.RunC
import proofs.«164028_j19327352832008_1_alg».proof.Proof.K.R0.Scoped

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i) (x0 : Vec F S1024x2048 .f32) (x1 : Vec F S2048x128 .f32) (y : S1024x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x128.size (by sl_kernel_rfl) y

/-- The accumulator after a point with k = 0. -/
def sout0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i) (x0 : Vec F S1024x2048 .f32) (x1 : Vec F S2048x128 .f32) : Vec F S1024x128 .f32 :=
  VS0_0.read (Elt F) (VS0_0.writes (Elt F) VS0_0.junk (kernelRun0_A c i arg2 harg2 arg3 harg3 arg4 harg4 arg5 harg5 hc0 hc1 x0 x1).2.1)

theorem scover0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i) (x0 : Vec F S1024x2048 .f32) (x1 : Vec F S2048x128 .f32) (xs0 : Vec F S1024x128 .f32) (y : S1024x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x128.size (by sl_kernel_rfl) y

/-- The accumulator after a point with k = 1 or 2, over what it held before. -/
def sout0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i) (x0 : Vec F S1024x2048 .f32) (x1 : Vec F S2048x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 hc0 hc1 x0 x1 xs0).2.1)

theorem scover0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y

/-- The accumulator after a point with k = 3, over what it held before. -/
def sout0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 hc0 hc1 x0 x1 xs0).2.1)

theorem cover0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) (y : S1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x128.size (by sl_kernel_rfl) y

/-- The output block after a point with k = 3. -/
def out0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) : Vec F S1024x128 .f32 :=
  VO0_2.read (Elt F) (VO0_2.writes (Elt F) VO0_2.junk (kernelRun0_C c i arg2 harg2 arg3 harg3 arg4 harg4 arg5 harg5 hc0 hc1 x0 x1 xs0).1)

/-! ## The accumulator after each point -/

/-- What the accumulator holds after point `n`: by recursion on the point, the case chosen by n mod 4. -/
def accAt0 (c : Dev nD) : (n : ℕ) → n < cfg0.N → Vec F S1024x128 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 4 = 0 then
      if h1 : (n + 1) % 4 = 3 then
        False.elim (by omega)
      else
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 4 = 3 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (accAt0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after point `t`: at k = 3 the stored block (over the accumulator the
    point before left); elsewhere nothing is stored and nothing reads this. -/
def outAt0 (c : Dev nD) (t : Fin cfg0.N) : Vec F S1024x128 .f32 :=
  if h1 : t.val % 4 = 3 then
    out0_C c (grid0.coords t) (ms0_0 t) (hs0_0 t) (ms0_1 t) (hs0_1 t) (ms0_2 t) (hs0_2 t) scM0_0 (Memref.isWhole_whole _) (fun h => (fun h => by omega) ((hcond0_0 t).mp h)) ((hcond0_1 t).mpr h1) (iblk0 V c 0 t) (iblk0 V c 1 t) (accAt0 V c (t.val - 1) (Nat.lt_of_le_of_lt (Nat.sub_le _ _) t.isLt))
  else VO0_2.read (Elt F) VO0_2.junk

theorem outAt0_C (c : Dev nD) (t : Fin cfg0.N) (h0 : ¬t.val % 4 = 0) (h1 : t.val % 4 = 3) :
    outAt0 V c t = out0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (accAt0 V c (t.val - 1) (Nat.lt_of_le_of_lt (Nat.sub_le _ _) t.isLt)) := by
  unfold outAt0; exact dif_pos h1

/-! ## The invariant -/

/-- Before point `n`: at the start what the launch hands the region; afterwards the accumulator at what point n − 1 left,
    the other scoped buffers at some contents, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; n mod 4 says which case the point is in; the invariant hands
    the body the accumulator at what the point before left (at anything before the first point) and takes it back at this
    point's contents; the output block is handed back as found unless k = 3. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [accAt0_A V c t h0 h1]
    unfold sout0_A; (try dsimp only)
    by_cases hz : t.val = 0
    · rw [PhiS0_castSucc V c t, PhiS0_zero V c _ _ hz]
      refine (sep_mono (PhiA0_split c) .rfl).trans ?_
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [accAt0_C V c t h0 h1, outAt0_C V c t h0 h1]
      unfold out0_C sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [accAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht]
  refine .trans ?_ (PhiA0_join c)
  iintro ⟨⟨HS0, HR⟩, Hg⟩
  isplitl [HS0 HR]
  · isplitl [HS0]
    · iexists _; iexact HS0
    iexact HR
  iexact Hg

end Cert.Kernel.Fr

end
-- ==== Proof.K.R1.Base.lean ====
/-
  One matmul-with-half-relu region of @main: the part every case of its body shares.
  The region is entered with the TensorCore's buffers at contents `V` (a parameter). Its grid has 32 points
  t = 4·i + k (i < 8 row blocks of A, k < 4 column blocks). At a point the body sees: window 0, the
  1024×2048 block (i, k) of A; window 1, the 2048×128 block k of the right operand; window 2, the
  1024×128 output block i; and a 1024×128 scratch accumulator carried from point to point.
  Three cases, by k: k = 0 resets the scratch and accumulates; k = 1, 2 accumulate; k = 3 accumulates
  and stores the output block. Here: the blocks read off `V`, the two branch conditions decided over the
  grid, where the output window is idle, and the names of the memrefs the body is called with.
-/
import proofs.«164028_j19327352832008_1_alg».proof.Proof.Gen.Kernel.Launch
import proofs.«164028_j19327352832008_1_alg».proof.Proof.Gen.Kernel.Skeleton
import proofs.«164028_j19327352832008_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds the A block of the point, whether it was fetched at this
    point or kept from the one before: for any proof data whose array is `V`'s and whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1, the right operand's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions, over the grid -/

/-- "k = 0": the reset of the accumulator is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 3 nothing is stored into the output block and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 the output block is stored. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S1024x128 .f32 := (Memref.whole cc1_stg2_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x128 .f32 := Memref.whole cc1_scratch0
abbrev VS1_0 : View sig .tc .vmem S1024x128 .f32 := scM1_0.view

end Cert.Kernel.Fr

end
-- ==== Proof.K.R1.RunA.lean ====
/-
  This region's body at a point with k = 0: the accumulator (at any contents) is overwritten with zeros, then
  with zeros + (A block)·(right block); the output block is left as found. The stores' pieces are found by the run.
-/
import proofs.«164028_j19327352832008_1_alg».proof.Proof.K.R1.Base

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x2048 .f32) (x1 : Vec F S2048x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_relu_half_kernel i arg2 harg2 arg3 harg3 arg4 harg4 arg5 harg5) K } := by
  refine ⟨[], ?_, fun xi2 E K => ?run⟩
  case run =>
    simp only [cc1__matmul_relu_half_kernel_eq_skeleton]; unfold cc1__matmul_relu_half_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.R1.RunB.lean ====
/-
  This region's body at a point with k = 1 or 2: the accumulator, holding `xs0`, is overwritten with
  xs0 + (A block)·(right block); the output block is left as found. The stores' pieces are found by the run.
-/
import proofs.«164028_j19327352832008_1_alg».proof.Proof.K.R1.RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_relu_half_kernel i arg2 harg2 arg3 harg3 arg4 harg4 arg5 harg5) K } := by
  refine ⟨[], ?_, fun xi2 E K => ?run⟩
  case run =>
    simp only [cc1__matmul_relu_half_kernel_eq_skeleton]; unfold cc1__matmul_relu_half_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.R1.RunC.lean ====
/-
  This region's body at a point with k = 3: the accumulator, holding `xs0`, is overwritten with
  xs0 + (A block)·(right block), read back, and the output block (at any contents) is overwritten with its
  left 64 columns clamped below at zero beside its right 64 columns. The stores' pieces are found by the run.
-/
import proofs.«164028_j19327352832008_1_alg».proof.Proof.K.R1.RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_relu_half_kernel i arg2 harg2 arg3 harg3 arg4 harg4 arg5 harg5) K } := by
  refine ⟨?_, ?_, fun E K => ?run⟩
  case run =>
    simp only [cc1__matmul_relu_half_kernel_eq_skeleton]; unfold cc1__matmul_relu_half_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.R1.Scoped.lean ====
/-
  Region 1's invariant before its first point, taken apart: the launch hands the region every scoped buffer that
  no window of it stages, each at some contents, beside the generator register. Of these the region's accumulator
  is named; the rest (region 0's staging buffers and accumulator) ride along untouched. The accumulator is the last of
  the list here, so the two directions are re-associations of a separating conjunction.
-/
import proofs.«164028_j19327352832008_1_alg».proof.Proof.K.R1.Base

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers region 1 never touches, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA1_split (c : Dev nD) :
    (Pipeline.ΦA spec1 c : sProp 𝕄) ⊢ iprop(iprop((∃ d, owns (c : Thread nD τ) scM1_0 fullShare d) ∗ Rest1 c) ∗ (∃ r, prngReg c r)) := by
  unfold Pipeline.ΦA Rest1; rw [scopedRest1_eq]; simp only [scM1_0, owns_whole]
  iintro ⟨⟨H0, H1, H2, H3, H4, H5, H6, HS⟩, Hg⟩
  isplitl [H0 H1 H2 H3 H4 H5 H6 HS]
  · isplitl [HS]; · iexact HS
    isplitl [H0]; · iexact H0
    isplitl [H1]; · iexact H1
    isplitl [H2]; · iexact H2
    isplitl [H3]; · iexact H3
    isplitl [H4]; · iexact H4
    isplitl [H5]; · iexact H5
    iexact H6
  iexact Hg

theorem PhiA1_join (c : Dev nD) :
    (iprop(iprop((∃ d, owns (c : Thread nD τ) scM1_0 fullShare d) ∗ Rest1 c) ∗ (∃ r, prngReg c r)) : sProp 𝕄) ⊢ Pipeline.ΦA spec1 c := by
  unfold Pipeline.ΦA Rest1; rw [scopedRest1_eq]; simp only [scM1_0, owns_whole]
  iintro ⟨⟨HS, H0, H1, H2, H3, H4, H5, H6⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iexact Hg

end Cert.Kernel.Fr

end
-- ==== Proof.K.R1.Data.lean ====
/-
  The region's proof data, entered at contents `V`.
  What each case of the body leaves in the accumulator (and, at k = 3, in the output block) is read back from
  the pieces its run found. `accAt1 n` is what the accumulator holds after point n, by recursion on the
  point: a reset-and-add at k = 0, an add over what the point before left otherwise. The output block after a
  point with k = 3 is that case's store over the accumulator the point before left. The region invariant
  holds the accumulator at `accAt1` between points. Then the body obligation, case by case.
-/
import proofs.«164028_j19327352832008_1_alg».proof.Proof.K.R1.RunC
import proofs.«164028_j19327352832008_1_alg».proof.Proof.K.R1.Scoped

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- The accumulator after a point with k = 0. -/
def sout1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) : Vec F S1024x128 .f32 :=
  VS1_0.read (Elt F) (VS1_0.writes (Elt F) VS1_0.junk (kernelRun1_A c i arg2 harg2 arg3 harg3 arg4 harg4 arg5 harg5 hc0 hc1 x0 x1).2.1)

theorem scover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- The accumulator after a point with k = 1 or 2, over what it held before. -/
def sout1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).2.1)

theorem scover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- The accumulator after a point with k = 3, over what it held before. -/
def sout1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

theorem cover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- The output block after a point with k = 3. -/
def out1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

/-! ## The accumulator after each point -/

/-- What the accumulator holds after point `n`: by recursion on the point, the case chosen by n mod 4. -/
def accAt1 (c : Dev nD) : (n : ℕ) → n < cfg1.N → Vec F S1024x128 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 4 = 0 then
      if h1 : (n + 1) % 4 = 3 then
        False.elim (by omega)
      else
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (accAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after point `t`: at k = 3 the stored block (over the accumulator the
    point before left); elsewhere nothing is stored and nothing reads this. -/
def outAt1 (c : Dev nD) (t : Fin cfg1.N) : Vec F S1024x128 .f32 :=
  if h1 : t.val % 4 = 3 then
    out1_C c (grid1.coords t) (ms1_0 t) (hs1_0 t) (ms1_1 t) (hs1_1 t) (ms1_2 t) (hs1_2 t) scM1_0 (Memref.isWhole_whole _) (fun h => (fun h => by omega) ((hcond1_0 t).mp h)) ((hcond1_1 t).mpr h1) (iblk1 V c 0 t) (iblk1 V c 1 t) (accAt1 V c (t.val - 1) (Nat.lt_of_le_of_lt (Nat.sub_le _ _) t.isLt))
  else VO1_2.read (Elt F) VO1_2.junk

theorem outAt1_C (c : Dev nD) (t : Fin cfg1.N) (h0 : ¬t.val % 4 = 0) (h1 : t.val % 4 = 3) :
    outAt1 V c t = out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (accAt1 V c (t.val - 1) (Nat.lt_of_le_of_lt (Nat.sub_le _ _) t.isLt)) := by
  unfold outAt1; exact dif_pos h1

/-! ## The invariant -/

/-- Before point `n`: at the start what the launch hands the region; afterwards the accumulator at what point n − 1 left,
    the other scoped buffers at some contents, the generator register at some state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accAt1 V c n hn) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; n mod 4 says which case the point is in; the invariant hands
    the body the accumulator at what the point before left (at anything before the first point) and takes it back at this
    point's contents; the output block is handed back as found unless k = 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [accAt1_A V c t h0 h1]
    unfold sout1_A; (try dsimp only)
    by_cases hz : t.val = 0
    · rw [PhiS1_castSucc V c t, PhiS1_zero V c _ _ hz]
      refine (sep_mono (PhiA1_split c) .rfl).trans ?_
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt1_C V c t h0 h1, outAt1_C V c t h0 h1]
      unfold out1_C sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [accAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht]
  refine .trans ?_ (PhiA1_join c)
  iintro ⟨⟨HS0, HR⟩, Hg⟩
  isplitl [HS0 HR]
  · isplitl [HS0]
    · iexists _; iexact HS0
    iexact HR
  iexact Hg

end Cert.Kernel.Fr

end
-- ==== Proof.K.Run.lean ====
/-
  The run of @main: one host operation (the concatenation of the two feature arrays), then the two kernel regions.
  The buffers' contents at each boundary are a fold from the launch memory: after the host operation; after region 0,
  whose output array holds what its write-backs leave; after region 1 likewise. Each region is a segment entered
  from the contents before it; the launch composes them, and every final memory holds each unscoped buffer at the last
  contents of the fold. The argument arrays are never written, so they end as launched (the frame); the result
  array ends at what region 1's write-backs leave.
-/
import proofs.«164028_j19327352832008_1_alg».proof.Proof.K.R0.Data
import proofs.«164028_j19327352832008_1_alg».proof.Proof.K.R1.Data
import Idealize.ShloMosaic.Lib.Pipeline.RegionsLoop

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the host operation: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## What the fold holds at the buffers the claims read -/

/-- The adjacency array is an input window of both regions and written by nothing. -/
theorem W1_main_arg0 (c : Dev nD) : W1 m c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
theorem W1_main_arg1 (c : Dev nD) : W1 m c (Proc.devRef .tc main_arg1) = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
theorem W1_main_arg2 (c : Dev nD) : W1 m c (Proc.devRef .tc main_arg2) = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
theorem W2_main_arg0 (c : Dev nD) : W2 m c (Proc.devRef .tc main_arg0) = m ((c : Thread nD τ).loc main_arg0) :=
  (W2_arr m c 0).trans (((dat0 (V1 m) c).arrAt_in 0 rfl _).trans ((A_eq0 (V1 m) c 0).trans (W1_main_arg0 m c)))
theorem W3_main_arg0 (c : Dev nD) : W3 m c (Proc.devRef .tc main_arg0) = m ((c : Thread nD τ).loc main_arg0) :=
  (W3_arr m c 0).trans (((dat1 (V2 m) c).arrAt_in 0 rfl _).trans ((A_eq1 (V2 m) c 0).trans (W2_main_arg0 m c)))
theorem W3_main_arg1 (c : Dev nD) : W3 m c (Proc.devRef .tc main_arg1) = m ((c : Thread nD τ).loc main_arg1) :=
  (W3_of_ne m c main_arg1 (by decide)).trans ((W2_of_ne m c main_arg1 (by decide)).trans (W1_main_arg1 m c))
theorem W3_main_arg2 (c : Dev nD) : W3 m c (Proc.devRef .tc main_arg2) = m ((c : Thread nD τ).loc main_arg2) :=
  (W3_of_ne m c main_arg2 (by decide)).trans ((W2_of_ne m c main_arg2 (by decide)).trans (W1_main_arg2 m c))
/-- The result array ends at what region 1's write-backs leave; -/
theorem W3_main_v2 (c : Dev nD) : W3 m c (Proc.devRef .tc main_v2) = (dat1 (V2 m) c).arrAt 2 cfg1.N := W3_arr m c 2
/-- region 1's right operand is what region 0's write-backs leave; -/
theorem V2_main_v1 (c : Dev nD) : V2 m c main_v1 = (dat0 (V1 m) c).arrAt 2 cfg0.N := W2_arr m c 2
theorem V2_main_arg0 (c : Dev nD) : V2 m c main_arg0 = m ((c : Thread nD τ).loc main_arg0) := W2_main_arg0 m c
theorem V1_main_arg0 (c : Dev nD) : V1 m c main_arg0 = m ((c : Thread nD τ).loc main_arg0) := W1_main_arg0 m c
/-- and region 0's right operand is the concatenation of the two feature arrays. -/
theorem V1_main_v0 (c : Dev nD) : V1 m c main_v0
    = concatenate S8192x128 1 [⟨S8192x64, m ((c : Thread nD τ).loc main_arg1)⟩, ⟨S8192x64, m ((c : Thread nD τ).loc main_arg2)⟩] concatenates_S8192x64_S8192x64_S8192x128_d1 := by
  show StableHlo.after hostOps0 (W0 m c) (Proc.devRef .tc main_v0) = _
  after_results

/-! ## The proof data family and the thread states -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 as a segment of @main: entered with every unscoped buffer at the contents before it, left with the region's arrays
    at what its write-backs leave and every other buffer as entered. The generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents before it, left with the region's arrays
    at what its write-backs leave and every other buffer as entered. The generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    refine (hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    memory holds each unscoped buffer at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

/-- The run with the result array named: what region 1's write-backs leave. -/
theorem run_result : θ_run defs (onTc (τ := τ) (main (F := F))) ⟨m, fun _ => 0, ρ⟩ (fun r => ∀ c : Dev nD,
      r.2.mem ((c.tc : Thread nD τ).loc main_v2) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.Kernel.Fr

end
-- ==== Proof.KI.R0.Base.lean ====
/-
  One matmul-with-half-relu region of @main: the part every case of its body shares.
  The region is entered with the TensorCore's buffers at contents `V` (a parameter). Its grid has 32 points
  t = 4·i + k (i < 8 row blocks of A, k < 4 column blocks). At a point the body sees: window 0, the
  1024×2048 block (i, k) of A; window 1, the 2048×128 block k of the right operand; window 2, the
  1024×128 output block i; and a 1024×128 scratch accumulator carried from point to point.
  Three cases, by k: k = 0 resets the scratch and accumulates; k = 1, 2 accumulate; k = 3 accumulates
  and stores the output block. Here: the blocks read off `V`, the two branch conditions decided over the
  grid, where the output window is idle, and the names of the memrefs the body is called with.
-/
import proofs.«164028_j19327352832008_1_alg».proof.Proof.Gen.KernelIdeal.Launch
import proofs.«164028_j19327352832008_1_alg».proof.Proof.Gen.KernelIdeal.Skeleton
import proofs.«164028_j19327352832008_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds the A block of the point, whether it was fetched at this
    point or kept from the one before: for any proof data whose array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, the right operand's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, over the grid -/

/-- "k = 0": the reset of the accumulator is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3": the output block is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where k ≠ 3 nothing is stored into the output block and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where k = 3 the output block is stored. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1024x128 .f32 := (Memref.whole cc0_stg2_0 : Memref sig .tc .vmem S1024x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x128 .f32 := Memref.whole cc0_scratch0
abbrev VS0_0 : View sig .tc .vmem S1024x128 .f32 := scM0_0.view

end Cert.KernelIdeal.Fr

end
-- ==== Proof.KI.R0.RunA.lean ====
/-
  This region's body at a point with k = 0: the accumulator (at any contents) is overwritten with zeros, then
  with zeros + (A block)·(right block); the output block is left as found. The stores' pieces are found by the run.
-/
import proofs.«164028_j19327352832008_1_alg».proof.Proof.KI.R0.Base

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x2048 .f32) (x1 : Vec F S2048x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_relu_half_kernel i arg2 harg2 arg3 harg3 arg4 harg4 arg5 harg5) K } := by
  refine ⟨[], ?_, fun xi2 E K => ?run⟩
  case run =>
    simp only [cc0__matmul_relu_half_kernel_eq_skeleton]; unfold cc0__matmul_relu_half_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R0.RunB.lean ====
/-
  This region's body at a point with k = 1 or 2: the accumulator, holding `xs0`, is overwritten with
  xs0 + (A block)·(right block); the output block is left as found. The stores' pieces are found by the run.
-/
import proofs.«164028_j19327352832008_1_alg».proof.Proof.KI.R0.RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_relu_half_kernel i arg2 harg2 arg3 harg3 arg4 harg4 arg5 harg5) K } := by
  refine ⟨[], ?_, fun xi2 E K => ?run⟩
  case run =>
    simp only [cc0__matmul_relu_half_kernel_eq_skeleton]; unfold cc0__matmul_relu_half_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R0.RunC.lean ====
/-
  This region's body at a point with k = 3: the accumulator, holding `xs0`, is overwritten with
  xs0 + (A block)·(right block), read back, and the output block (at any contents) is overwritten with its
  left 64 columns clamped below at zero beside its right 64 columns. The stores' pieces are found by the run.
-/
import proofs.«164028_j19327352832008_1_alg».proof.Proof.KI.R0.RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_relu_half_kernel i arg2 harg2 arg3 harg3 arg4 harg4 arg5 harg5) K } := by
  refine ⟨?_, ?_, fun E K => ?run⟩
  case run =>
    simp only [cc0__matmul_relu_half_kernel_eq_skeleton]; unfold cc0__matmul_relu_half_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.R0.Scoped.lean ====
/-
  Region 0's invariant before its first point, taken apart: the launch hands the region every scoped buffer that
  no window of it stages, each at some contents, beside the generator register. Of these the region's accumulator
  is named; the rest (the other region's staging buffers and accumulator) ride along untouched.
-/
import proofs.«164028_j19327352832008_1_alg».proof.Proof.KI.R0.Base

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers region 0 never touches, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

theorem PhiA0_split (c : Dev nD) :
    (Pipeline.ΦA spec0 c : sProp 𝕄) ⊢ iprop(iprop((∃ d, owns (c : Thread nD τ) scM0_0 fullShare d) ∗ Rest0 c) ∗ (∃ r, prngReg c r)) :=
  Entails.of_eq (PhiA0_eq c)

theorem PhiA0_join (c : Dev nD) :
    (iprop(iprop((∃ d, owns (c : Thread nD τ) scM0_0 fullShare d) ∗ Rest0 c) ∗ (∃ r, prngReg c r)) : sProp 𝕄) ⊢ Pipeline.ΦA spec0 c :=
  Entails.of_eq (PhiA0_eq c).symm

end Cert.KernelIdeal.Fr

end
-- ==== Proof.KI.R0.Data.lean ====
/-
  The region's proof data, entered at contents `V`.
  What each case of the body leaves in the accumulator (and, at k = 3, in the output block) is read back from
  the pieces its run found. `accAt0 n` is what the accumulator holds after point n, by recursion on the
  point: a reset-and-add at k = 0, an add over what the point before left otherwise. The output block after a
  point with k = 3 is that case's store over the accumulator the point before left. The region invariant
  holds the accumulator at `accAt0` between points. Then the body obligation, case by case.
-/
import proofs.«164028_j19327352832008_1_alg».proof.Proof.KI.R0.RunC
import proofs.«164028_j19327352832008_1_alg».proof.Proof.KI.R0.Scoped

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i) (x0 : Vec F S1024x2048 .f32) (x1 : Vec F S2048x128 .f32) (y : S1024x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x128.size (by sl_kernel_rfl) y

/-- The accumulator after a point with k = 0. -/
def sout0_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i) (x0 : Vec F S1024x2048 .f32) (x1 : Vec F S2048x128 .f32) : Vec F S1024x128 .f32 :=
  VS0_0.read (Elt F) (VS0_0.writes (Elt F) VS0_0.junk (kernelRun0_A c i arg2 harg2 arg3 harg3 arg4 harg4 arg5 harg5 hc0 hc1 x0 x1).2.1)

theorem scover0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i) (x0 : Vec F S1024x2048 .f32) (x1 : Vec F S2048x128 .f32) (xs0 : Vec F S1024x128 .f32) (y : S1024x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x128.size (by sl_kernel_rfl) y

/-- The accumulator after a point with k = 1 or 2, over what it held before. -/
def sout0_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i) (x0 : Vec F S1024x2048 .f32) (x1 : Vec F S2048x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 hc0 hc1 x0 x1 xs0).2.1)

theorem scover0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y

/-- The accumulator after a point with k = 3, over what it held before. -/
def sout0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 hc0 hc1 x0 x1 xs0).2.1)

theorem cover0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) (y : S1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x128.size (by sl_kernel_rfl) y

/-- The output block after a point with k = 3. -/
def out0_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) : Vec F S1024x128 .f32 :=
  VO0_2.read (Elt F) (VO0_2.writes (Elt F) VO0_2.junk (kernelRun0_C c i arg2 harg2 arg3 harg3 arg4 harg4 arg5 harg5 hc0 hc1 x0 x1 xs0).1)

/-! ## The accumulator after each point -/

/-- What the accumulator holds after point `n`: by recursion on the point, the case chosen by n mod 4. -/
def accAt0 (c : Dev nD) : (n : ℕ) → n < cfg0.N → Vec F S1024x128 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 4 = 0 then
      if h1 : (n + 1) % 4 = 3 then
        False.elim (by omega)
      else
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 4 = 3 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (accAt0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after point `t`: at k = 3 the stored block (over the accumulator the
    point before left); elsewhere nothing is stored and nothing reads this. -/
def outAt0 (c : Dev nD) (t : Fin cfg0.N) : Vec F S1024x128 .f32 :=
  if h1 : t.val % 4 = 3 then
    out0_C c (grid0.coords t) (ms0_0 t) (hs0_0 t) (ms0_1 t) (hs0_1 t) (ms0_2 t) (hs0_2 t) scM0_0 (Memref.isWhole_whole _) (fun h => (fun h => by omega) ((hcond0_0 t).mp h)) ((hcond0_1 t).mpr h1) (iblk0 V c 0 t) (iblk0 V c 1 t) (accAt0 V c (t.val - 1) (Nat.lt_of_le_of_lt (Nat.sub_le _ _) t.isLt))
  else VO0_2.read (Elt F) VO0_2.junk

theorem outAt0_C (c : Dev nD) (t : Fin cfg0.N) (h0 : ¬t.val % 4 = 0) (h1 : t.val % 4 = 3) :
    outAt0 V c t = out0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (accAt0 V c (t.val - 1) (Nat.lt_of_le_of_lt (Nat.sub_le _ _) t.isLt)) := by
  unfold outAt0; exact dif_pos h1

/-! ## The invariant -/

/-- Before point `n`: at the start what the launch hands the region; afterwards the accumulator at what point n − 1 left,
    the other scoped buffers at some contents, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; n mod 4 says which case the point is in; the invariant hands
    the body the accumulator at what the point before left (at anything before the first point) and takes it back at this
    point's contents; the output block is handed back as found unless k = 3. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [accAt0_A V c t h0 h1]
    unfold sout0_A; (try dsimp only)
    by_cases hz : t.val = 0
    · rw [PhiS0_castSucc V c t, PhiS0_zero V c _ _ hz]
      refine (sep_mono (PhiA0_split c) .rfl).trans ?_
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [accAt0_C V c t h0 h1, outAt0_C V c t h0 h1]
      unfold out0_C sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [accAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht]
  refine .trans ?_ (PhiA0_join c)
  iintro ⟨⟨HS0, HR⟩, Hg⟩
  isplitl [HS0 HR]
  · isplitl [HS0]
    · iexists _; iexact HS0
    iexact HR
  iexact Hg

end Cert.KernelIdeal.Fr

end
-- ==== Proof.KI.R1.Base.lean ====
/-
  One matmul-with-half-relu region of @main: the part every case of its body shares.
  The region is entered with the TensorCore's buffers at contents `V` (a parameter). Its grid has 32 points
  t = 4·i + k (i < 8 row blocks of A, k < 4 column blocks). At a point the body sees: window 0, the
  1024×2048 block (i, k) of A; window 1, the 2048×128 block k of the right operand; window 2, the
  1024×128 output block i; and a 1024×128 scratch accumulator carried from point to point.
  Three cases, by k: k = 0 resets the scratch and accumulates; k = 1, 2 accumulate; k = 3 accumulates
  and stores the output block. Here: the blocks read off `V`, the two branch conditions decided over the
  grid, where the output window is idle, and the names of the memrefs the body is called with.
-/
import proofs.«164028_j19327352832008_1_alg».proof.Proof.Gen.KernelIdeal.Launch
import proofs.«164028_j19327352832008_1_alg».proof.Proof.Gen.KernelIdeal.Skeleton
import proofs.«164028_j19327352832008_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds the A block of the point, whether it was fetched at this
    point or kept from the one before: for any proof data whose array is `V`'s and whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1, the right operand's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions, over the grid -/

/-- "k = 0": the reset of the accumulator is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where k ≠ 3 nothing is stored into the output block and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where k = 3 the output block is stored. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1_2 : View sig .tc .vmem S1024x128 .f32 := (Memref.whole cc1_stg2_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x128 .f32 := Memref.whole cc1_scratch0
abbrev VS1_0 : View sig .tc .vmem S1024x128 .f32 := scM1_0.view

end Cert.KernelIdeal.Fr

end
-- ==== Proof.KI.R1.RunA.lean ====
/-
  This region's body at a point with k = 0: the accumulator (at any contents) is overwritten with zeros, then
  with zeros + (A block)·(right block); the output block is left as found. The stores' pieces are found by the run.
-/
import proofs.«164028_j19327352832008_1_alg».proof.Proof.KI.R1.Base

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x2048 .f32) (x1 : Vec F S2048x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_relu_half_kernel i arg2 harg2 arg3 harg3 arg4 harg4 arg5 harg5) K } := by
  refine ⟨[], ?_, fun xi2 E K => ?run⟩
  case run =>
    simp only [cc1__matmul_relu_half_kernel_eq_skeleton]; unfold cc1__matmul_relu_half_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R1.RunB.lean ====
/-
  This region's body at a point with k = 1 or 2: the accumulator, holding `xs0`, is overwritten with
  xs0 + (A block)·(right block); the output block is left as found. The stores' pieces are found by the run.
-/
import proofs.«164028_j19327352832008_1_alg».proof.Proof.KI.R1.RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_relu_half_kernel i arg2 harg2 arg3 harg3 arg4 harg4 arg5 harg5) K } := by
  refine ⟨[], ?_, fun xi2 E K => ?run⟩
  case run =>
    simp only [cc1__matmul_relu_half_kernel_eq_skeleton]; unfold cc1__matmul_relu_half_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R1.RunC.lean ====
/-
  This region's body at a point with k = 3: the accumulator, holding `xs0`, is overwritten with
  xs0 + (A block)·(right block), read back, and the output block (at any contents) is overwritten with its
  left 64 columns clamped below at zero beside its right 64 columns. The stores' pieces are found by the run.
-/
import proofs.«164028_j19327352832008_1_alg».proof.Proof.KI.R1.RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x2048 .f32) (x1 : Vec F S2048x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_relu_half_kernel i arg2 harg2 arg3 harg3 arg4 harg4 arg5 harg5) K } := by
  refine ⟨?_, ?_, fun E K => ?run⟩
  case run =>
    simp only [cc1__matmul_relu_half_kernel_eq_skeleton]; unfold cc1__matmul_relu_half_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.R1.Scoped.lean ====
/-
  Region 1's invariant before its first point, taken apart: the launch hands the region every scoped buffer that
  no window of it stages, each at some contents, beside the generator register. Of these the region's accumulator
  is named; the rest (region 0's staging buffers and accumulator) ride along untouched. The accumulator is the last of
  the list here, so the two directions are re-associations of a separating conjunction.
-/
import proofs.«164028_j19327352832008_1_alg».proof.Proof.KI.R1.Base

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers region 1 never touches, each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA1_split (c : Dev nD) :
    (Pipeline.ΦA spec1 c : sProp 𝕄) ⊢ iprop(iprop((∃ d, owns (c : Thread nD τ) scM1_0 fullShare d) ∗ Rest1 c) ∗ (∃ r, prngReg c r)) := by
  unfold Pipeline.ΦA Rest1; rw [scopedRest1_eq]; simp only [scM1_0, owns_whole]
  iintro ⟨⟨H0, H1, H2, H3, H4, H5, H6, HS⟩, Hg⟩
  isplitl [H0 H1 H2 H3 H4 H5 H6 HS]
  · isplitl [HS]; · iexact HS
    isplitl [H0]; · iexact H0
    isplitl [H1]; · iexact H1
    isplitl [H2]; · iexact H2
    isplitl [H3]; · iexact H3
    isplitl [H4]; · iexact H4
    isplitl [H5]; · iexact H5
    iexact H6
  iexact Hg

theorem PhiA1_join (c : Dev nD) :
    (iprop(iprop((∃ d, owns (c : Thread nD τ) scM1_0 fullShare d) ∗ Rest1 c) ∗ (∃ r, prngReg c r)) : sProp 𝕄) ⊢ Pipeline.ΦA spec1 c := by
  unfold Pipeline.ΦA Rest1; rw [scopedRest1_eq]; simp only [scM1_0, owns_whole]
  iintro ⟨⟨HS, H0, H1, H2, H3, H4, H5, H6⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iexact Hg

end Cert.KernelIdeal.Fr

end
-- ==== Proof.KI.R1.Data.lean ====
/-
  The region's proof data, entered at contents `V`.
  What each case of the body leaves in the accumulator (and, at k = 3, in the output block) is read back from
  the pieces its run found. `accAt1 n` is what the accumulator holds after point n, by recursion on the
  point: a reset-and-add at k = 0, an add over what the point before left otherwise. The output block after a
  point with k = 3 is that case's store over the accumulator the point before left. The region invariant
  holds the accumulator at `accAt1` between points. Then the body obligation, case by case.
-/
import proofs.«164028_j19327352832008_1_alg».proof.Proof.KI.R1.RunC
import proofs.«164028_j19327352832008_1_alg».proof.Proof.KI.R1.Scoped

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- The accumulator after a point with k = 0. -/
def sout1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) : Vec F S1024x128 .f32 :=
  VS1_0.read (Elt F) (VS1_0.writes (Elt F) VS1_0.junk (kernelRun1_A c i arg2 harg2 arg3 harg3 arg4 harg4 arg5 harg5 hc0 hc1 x0 x1).2.1)

theorem scover1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- The accumulator after a point with k = 1 or 2, over what it held before. -/
def sout1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).2.1)

theorem scover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- The accumulator after a point with k = 3, over what it held before. -/
def sout1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

theorem cover1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- The output block after a point with k = 3. -/
def out1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

/-! ## The accumulator after each point -/

/-- What the accumulator holds after point `n`: by recursion on the point, the case chosen by n mod 4. -/
def accAt1 (c : Dev nD) : (n : ℕ) → n < cfg1.N → Vec F S1024x128 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 4 = 0 then
      if h1 : (n + 1) % 4 = 3 then
        False.elim (by omega)
      else
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (accAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans ((dif_neg h1).trans rfl)

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after point `t`: at k = 3 the stored block (over the accumulator the
    point before left); elsewhere nothing is stored and nothing reads this. -/
def outAt1 (c : Dev nD) (t : Fin cfg1.N) : Vec F S1024x128 .f32 :=
  if h1 : t.val % 4 = 3 then
    out1_C c (grid1.coords t) (ms1_0 t) (hs1_0 t) (ms1_1 t) (hs1_1 t) (ms1_2 t) (hs1_2 t) scM1_0 (Memref.isWhole_whole _) (fun h => (fun h => by omega) ((hcond1_0 t).mp h)) ((hcond1_1 t).mpr h1) (iblk1 V c 0 t) (iblk1 V c 1 t) (accAt1 V c (t.val - 1) (Nat.lt_of_le_of_lt (Nat.sub_le _ _) t.isLt))
  else VO1_2.read (Elt F) VO1_2.junk

theorem outAt1_C (c : Dev nD) (t : Fin cfg1.N) (h0 : ¬t.val % 4 = 0) (h1 : t.val % 4 = 3) :
    outAt1 V c t = out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (accAt1 V c (t.val - 1) (Nat.lt_of_le_of_lt (Nat.sub_le _ _) t.isLt)) := by
  unfold outAt1; exact dif_pos h1

/-! ## The invariant -/

/-- Before point `n`: at the start what the launch hands the region; afterwards the accumulator at what point n − 1 left,
    the other scoped buffers at some contents, the generator register at some state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accAt1 V c n hn) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; n mod 4 says which case the point is in; the invariant hands
    the body the accumulator at what the point before left (at anything before the first point) and takes it back at this
    point's contents; the output block is handed back as found unless k = 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [accAt1_A V c t h0 h1]
    unfold sout1_A; (try dsimp only)
    by_cases hz : t.val = 0
    · rw [PhiS1_castSucc V c t, PhiS1_zero V c _ _ hz]
      refine (sep_mono (PhiA1_split c) .rfl).trans ?_
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt1_C V c t h0 h1, outAt1_C V c t h0 h1]
      unfold out1_C sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [accAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht]
  refine .trans ?_ (PhiA1_join c)
  iintro ⟨⟨HS0, HR⟩, Hg⟩
  isplitl [HS0 HR]
  · isplitl [HS0]
    · iexists _; iexact HS0
    iexact HR
  iexact Hg

end Cert.KernelIdeal.Fr

end
-- ==== Proof.KI.Run.lean ====
/-
  The run of @main: one host operation (the concatenation of the two feature arrays), then the two kernel regions.
  The buffers' contents at each boundary are a fold from the launch memory: after the host operation; after region 0,
  whose output array holds what its write-backs leave; after region 1 likewise. Each region is a segment entered
  from the contents before it; the launch composes them, and every final memory holds each unscoped buffer at the last
  contents of the fold. The argument arrays are never written, so they end as launched (the frame); the result
  array ends at what region 1's write-backs leave.
-/
import proofs.«164028_j19327352832008_1_alg».proof.Proof.KI.R0.Data
import proofs.«164028_j19327352832008_1_alg».proof.Proof.KI.R1.Data
import Idealize.ShloMosaic.Lib.Pipeline.RegionsLoop

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the host operation: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## What the fold holds at the buffers the claims read -/

/-- The adjacency array is an input window of both regions and written by nothing. -/
theorem W1_main_arg0 (c : Dev nD) : W1 m c (Proc.devRef .tc main_arg0) = m ((c : Thread nD τ).loc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
theorem W1_main_arg1 (c : Dev nD) : W1 m c (Proc.devRef .tc main_arg1) = m ((c : Thread nD τ).loc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
theorem W1_main_arg2 (c : Dev nD) : W1 m c (Proc.devRef .tc main_arg2) = m ((c : Thread nD τ).loc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
theorem W2_main_arg0 (c : Dev nD) : W2 m c (Proc.devRef .tc main_arg0) = m ((c : Thread nD τ).loc main_arg0) :=
  (W2_arr m c 0).trans (((dat0 (V1 m) c).arrAt_in 0 rfl _).trans ((A_eq0 (V1 m) c 0).trans (W1_main_arg0 m c)))
theorem W3_main_arg0 (c : Dev nD) : W3 m c (Proc.devRef .tc main_arg0) = m ((c : Thread nD τ).loc main_arg0) :=
  (W3_arr m c 0).trans (((dat1 (V2 m) c).arrAt_in 0 rfl _).trans ((A_eq1 (V2 m) c 0).trans (W2_main_arg0 m c)))
theorem W3_main_arg1 (c : Dev nD) : W3 m c (Proc.devRef .tc main_arg1) = m ((c : Thread nD τ).loc main_arg1) :=
  (W3_of_ne m c main_arg1 (by decide)).trans ((W2_of_ne m c main_arg1 (by decide)).trans (W1_main_arg1 m c))
theorem W3_main_arg2 (c : Dev nD) : W3 m c (Proc.devRef .tc main_arg2) = m ((c : Thread nD τ).loc main_arg2) :=
  (W3_of_ne m c main_arg2 (by decide)).trans ((W2_of_ne m c main_arg2 (by decide)).trans (W1_main_arg2 m c))
/-- The result array ends at what region 1's write-backs leave; -/
theorem W3_main_v2 (c : Dev nD) : W3 m c (Proc.devRef .tc main_v2) = (dat1 (V2 m) c).arrAt 2 cfg1.N := W3_arr m c 2
/-- region 1's right operand is what region 0's write-backs leave; -/
theorem V2_main_v1 (c : Dev nD) : V2 m c main_v1 = (dat0 (V1 m) c).arrAt 2 cfg0.N := W2_arr m c 2
theorem V2_main_arg0 (c : Dev nD) : V2 m c main_arg0 = m ((c : Thread nD τ).loc main_arg0) := W2_main_arg0 m c
theorem V1_main_arg0 (c : Dev nD) : V1 m c main_arg0 = m ((c : Thread nD τ).loc main_arg0) := W1_main_arg0 m c
/-- and region 0's right operand is the concatenation of the two feature arrays. -/
theorem V1_main_v0 (c : Dev nD) : V1 m c main_v0
    = concatenate S8192x128 1 [⟨S8192x64, m ((c : Thread nD τ).loc main_arg1)⟩, ⟨S8192x64, m ((c : Thread nD τ).loc main_arg2)⟩] concatenates_S8192x64_S8192x64_S8192x128_d1 := by
  show StableHlo.after hostOps0 (W0 m c) (Proc.devRef .tc main_v0) = _
  after_results

/-! ## The proof data family and the thread states -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 as a segment of @main: entered with every unscoped buffer at the contents before it, left with the region's arrays
    at what its write-backs leave and every other buffer as entered. The generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents before it, left with the region's arrays
    at what its write-backs leave and every other buffer as entered. The generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    refine (hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every final
    memory holds each unscoped buffer at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

/-- The run with the result array named: what region 1's write-backs leave. -/
theorem run_result : θ_run defs (onTc (τ := τ) (main (F := F))) ⟨m, fun _ => 0, ρ⟩ (fun r => ∀ c : Dev nD,
      r.2.mem ((c.tc : Thread nD τ).loc main_v2) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.KernelIdeal.Fr

end
-- ==== Proof.KI.R0.Pay.lean ====
/-
  What the body's stores hold, as values. The pieces each case's run found are read back as the skeleton's payloads:
  the accumulator after a point is `acc + (A block)·(right block)` (over zeros at k = 0), and at k = 3 the output block is
  that accumulator with its left 64 columns clamped below at zero. Then each payload at an index, over the extended reals:
  a matmul into a zero accumulator is a plain sum over the 2048 contracted positions, a change of float format is the identity.
-/
import proofs.«164028_j19327352832008_1_alg».proof.Proof.KI.R0.Data
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The zero offsets, as a constant function. -/
private theorem hz0 : (![0, 0] : Fin 2 → Nat) = fun _ => 0 := funext fun a => by fin_cases a <;> rfl

section
variable {F : FTy → Type} [FloatOps F]

/-- After a point with k = 0 the accumulator holds zeros + (A block)·(right block). -/
theorem val0_sout_A (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i) (x0 : Vec F S1024x2048 .f32) (x1 : Vec F S2048x128 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S1024x128) hz0, View.readCov_unit_zero (S := S1024x128) _ hz0]
  simp only [View.readAt_eq_ld, harg2.read_unread, harg3.read_unread, View.ld_unit_zero (S := S1024x2048) hz0, View.ld_unit_zero (S := S2048x128) hz0, View.ld_unit_zero (S := S1024x128) hz0]

/-- After a point with k = 1 or 2 it holds what it held + (A block)·(right block). -/
theorem val0_sout_B (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i) (x0 : Vec F S1024x2048 .f32) (x1 : Vec F S2048x128 .f32) (xs0 : Vec F S1024x128 .f32) :
    sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  rw [View.canon_unit_zero hz0]
  simp only [View.readAt_eq_ld, harg2.read_unread, harg3.read_unread, harg5.read_unread, View.ld_unit_zero (S := S1024x2048) hz0, View.ld_unit_zero (S := S2048x128) hz0, View.ld_unit_zero (S := S1024x128) hz0]

/-- The same after a point with k = 3; -/
theorem val0_sout_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) :
    sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz0]
  simp only [View.readAt_eq_ld, harg2.read_unread, harg3.read_unread, harg5.read_unread, View.ld_unit_zero (S := S1024x2048) hz0, View.ld_unit_zero (S := S2048x128) hz0, View.ld_unit_zero (S := S1024x128) hz0]

/-- and the output block then holds that accumulator, half-clamped. -/
theorem val0_out_C (c : Dev nD) (i : grid0.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i) (x0 : Vec F S1024x2048 .f32) (x1 : Vec F S2048x128 .f32) (xs0 : Vec F S1024x128 .f32) :
    out0_C c i arg2 harg2 arg3 harg3 arg4 harg4 arg5 harg5 hc0 hc1 x0 x1 xs0 = k0_pay3 (k0_pay2 x0 x1 xs0) := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz0, View.readCov_unit_zero (S := S1024x128) _ hz0]
  simp only [View.readAt_eq_ld, harg2.read_unread, harg3.read_unread, harg5.read_unread, View.ld_unit_zero (S := S1024x2048) hz0, View.ld_unit_zero (S := S2048x128) hz0, View.ld_unit_zero (S := S1024x128) hz0]

end

/-! ## The payloads at an index, over the extended reals -/

/-! The matmul contracts axis 1 of the left block against axis 0 of the right block: at output index `i` and contraction
    position `q` the left operand is read at (i₀, q) and the right operand at (q, i₁). -/

private theorem lhs0_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl

private theorem lhs0_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q

private theorem rhs0_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q

private theorem rhs0_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

theorem val0_pay1 (p : Fin 1024) (q : Fin 128) : k0_pay1 (F := Ideal) (ix2 p q) = 0 := by
  -- a broadcast of the zero word, through a shape cast to the same shape
  unfold k0_pay1
  simp only [shapeCast_self]
  exact Ideal.ofBits_zero_f32

theorem val0_pay2 (x0 : Vec Ideal S1024x2048 .f32) (x1 : Vec Ideal S2048x128 .f32) (xs : Vec Ideal S1024x128 .f32) (p : Fin 1024) (q : Fin 128) :
    k0_pay2 (F := Ideal) x0 x1 xs (ix2 p q) = xs (ix2 p q) + ∑ k : Fin 2048, x0 (ix2 p k) * x1 (ix2 k q) := by
  unfold k0_pay2
  simp only [shapeCast_self]
  -- the sum of the accumulator and the product, at the index
  refine (addf_apply _ _ _).trans ?_
  refine congrArg (xs (ix2 p q) + ·) ?_
  -- the product into a zero accumulator is the sum over the contraction index,
  refine (Ideal.matmul_constant_zero_apply dot_S1024x2048_S2048x128_S1024x128_1_0_0_1_n_n none _ _ (ix2 p q)).trans ?_
  -- re-indexed by the one contracted coordinate
  refine (Equiv.sum_comp (contrEquiv1 dot_S1024x2048_S2048x128_S1024x128_1_0_0_1_n_n 2048 rfl rfl).symm _).symm.trans ?_
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs0_0 _ _
    | ⟨1, _⟩ => exact (lhs0_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs0_0 _ _).trans hk
    | ⟨1, _⟩ => exact rhs0_1 _ _)
  -- a change of float format is the identity on extended reals
  show x0 (dot_S1024x2048_S2048x128_S1024x128_1_0_0_1_n_n.lhsIdx (ix2 p q) ((contrEquiv1 dot_S1024x2048_S2048x128_S1024x128_1_0_0_1_n_n 2048 rfl rfl).symm k)) * x1 (dot_S1024x2048_S2048x128_S1024x128_1_0_0_1_n_n.rhsIdx (ix2 p q) ((contrEquiv1 dot_S1024x2048_S2048x128_S1024x128_1_0_0_1_n_n 2048 rfl rfl).symm k)) = _
  rw [el, er]

theorem val0_pay3 (v : Vec Ideal S1024x128 .f32) (p : Fin 1024) (q : Fin 128) :
    k0_pay3 (F := Ideal) v (ix2 p q) = if q.val < 64 then max (v (ix2 p q)) 0 else v (ix2 p q) := by
  unfold k0_pay3
  by_cases hq : q.val < 64
  · -- a left column: the first piece, the clamped left half
    rw [if_pos hq]
    refine (concatenate_pair_apply_left (1 : Fin S1024x128.rank) _ _ concatenates_S1024x64_S1024x64_S1024x128_d1 (ix2 p q) rfl
      (ix2 p (⟨q.val, hq⟩ : Fin 64)) (fun b => ?_)).trans ?_
    · match b with
      | ⟨0, _⟩ => rfl
      | ⟨1, _⟩ => rfl
    · refine (maximumf_apply _ _ _).trans ?_
      rw [slice2_axis1_apply 0 v slices_S1024x128_o0_0_S1024x64 p (⟨q.val, hq⟩ : Fin 64) q (Nat.zero_add _).symm]
      exact congrArg (max (v (ix2 p q))) Ideal.ofBits_zero_f32
  · -- a right column: the second piece, the right half as it is, 64 columns along
    rw [if_neg hq]
    have hq' : q.val - 64 < 64 := by have := q.isLt; omega
    refine (concatenate_pair_apply_right (1 : Fin S1024x128.rank) _ _ concatenates_S1024x64_S1024x64_S1024x128_d1 (ix2 p q) rfl rfl
      (ix2 p (⟨q.val - 64, hq'⟩ : Fin 64)) (fun b hb => ?_) ?_).trans ?_
    · match b with
      | ⟨0, _⟩ => rfl
      | ⟨1, _⟩ => exact absurd rfl hb
    · show q.val - 64 + 64 = q.val
      omega
    · exact slice2_axis1_apply 64 v slices_S1024x128_o0_64_S1024x64 p (⟨q.val - 64, hq'⟩ : Fin 64) q (by show q.val = 64 + (q.val - 64); omega)

end Cert.KernelIdeal.Val

end
-- ==== Proof.Spec.lean ====
/-
  The mathematics of the two programs, over the extended reals.
  One layer maps a right operand X (8192×128) to Y = A·X with the left 64 columns clamped below at zero:
  Y(r, c) = max(∑ₖ A(r, k)·X(k, c), 0) for c < 64 and ∑ₖ A(r, k)·X(k, c) for c ≥ 64.
  The network is two layers over the two feature arrays laid side by side.
  The kernel computes each sum in four blocks of 2048 terms, added in order onto zero: the same sum, since addition
  of extended reals is commutative and associative (no finiteness is needed).
-/
import Idealize.ShloMosaic.PureOps.Ideal
import Idealize.ShloMosaic.Lib.ValueIdx

noncomputable section

namespace Cert.Spec

open Idealize.ShloMosaic Idealize.ShloMosaic.ValueIdx

abbrev SA : Shape := ⟨2, ![8192, 8192]⟩
abbrev SX : Shape := ⟨2, ![8192, 128]⟩
abbrev SH : Shape := ⟨2, ![8192, 64]⟩

/-- Entry (r, c) of the product A·X. -/
def mm (A : SA.Idx → EReal) (X : SX.Idx → EReal) (r : Fin 8192) (c : Fin 128) : EReal :=
  ∑ k : Fin 8192, A (ix2 r k) * X (ix2 k c)

/-- One layer at (r, c): the product's entry, clamped below at zero in the left 64 columns. -/
def layerAt (A : SA.Idx → EReal) (X : SX.Idx → EReal) (r : Fin 8192) (c : Fin 128) : EReal :=
  if c.val < 64 then max (mm A X r c) 0 else mm A X r c

/-- One layer. -/
def layer (A : SA.Idx → EReal) (X : SX.Idx → EReal) : SX.Idx → EReal :=
  fun j => layerAt A X (j 0) (j 1)

/-- The two feature arrays side by side, at (r, c). -/
def catAt (F NF : SH.Idx → EReal) (r : Fin 8192) (c : Fin 128) : EReal :=
  if h : c.val < 64 then F (ix2 r ⟨c.val, h⟩) else NF (ix2 r ⟨c.val - 64, by have := c.isLt; omega⟩)

def cat (F NF : SH.Idx → EReal) : SX.Idx → EReal :=
  fun j => catAt F NF (j 0) (j 1)

/-- The network: two layers over the concatenated features. -/
def net (A : SA.Idx → EReal) (F NF : SH.Idx → EReal) : SX.Idx → EReal :=
  layer A (layer A (cat F NF))

theorem layer_apply (A : SA.Idx → EReal) (X : SX.Idx → EReal) (r : Fin 8192) (c : Fin 128) :
    layer A X (ix2 r c) = layerAt A X r c := rfl

theorem cat_apply (F NF : SH.Idx → EReal) (r : Fin 8192) (c : Fin 128) :
    cat F NF (ix2 r c) = catAt F NF r c := rfl

/-- The index 2048·b + k of the contraction, for block b < 4 and k < 2048 inside it. -/
def kIdx (b : Fin 4) (k : Fin 2048) : Fin 8192 := ⟨2048 * b.val + k.val, by have := b.isLt; have := k.isLt; omega⟩

/-- The partial product over the first n blocks of the contraction. -/
def mmUpTo (A : SA.Idx → EReal) (X : SX.Idx → EReal) (r : Fin 8192) (c : Fin 128) (n : ℕ) : EReal :=
  ∑ b : Fin 4, if b.val < n then ∑ k : Fin 2048, A (ix2 r (kIdx b k)) * X (ix2 (kIdx b k) c) else 0

end Cert.Spec

end
-- ==== Proof.SpecLaws.lean ====
/-
  The algebra of the partial products: the sum over the first n blocks of the contraction starts at zero, grows by one
  block's sum at a time, and after all four blocks is the whole product's entry, since the 8192 contracted positions are
  exactly the pairs (block b < 4, position k < 2048 inside it) at 2048·b + k.
-/
import proofs.«164028_j19327352832008_1_alg».proof.Proof.Spec

noncomputable section

namespace Cert.Spec

open Idealize.ShloMosaic Idealize.ShloMosaic.ValueIdx

/-- The contracted positions, as pairs (block, position inside the block). -/
def kEquiv : Fin 4 × Fin 2048 ≃ Fin 8192 where
  toFun p := kIdx p.1 p.2
  invFun j := (⟨j.val / 2048, by have := j.isLt; omega⟩, ⟨j.val % 2048, Nat.mod_lt _ (by decide)⟩)
  left_inv p := by
    obtain ⟨b, k⟩ := p
    have hb := b.isLt
    have hk := k.isLt
    refine Prod.ext (Fin.ext ?_) (Fin.ext ?_)
    · show (2048 * b.val + k.val) / 2048 = b.val
      omega
    · show (2048 * b.val + k.val) % 2048 = k.val
      omega
  right_inv j := by
    apply Fin.ext
    show 2048 * (j.val / 2048) + j.val % 2048 = j.val
    omega

theorem kEquiv_apply (b : Fin 4) (k : Fin 2048) : kEquiv (b, k) = kIdx b k := rfl

/-- No block: the empty sum. -/
theorem mmUpTo_zero (A : SA.Idx → EReal) (X : SX.Idx → EReal) (r : Fin 8192) (c : Fin 128) :
    mmUpTo A X r c 0 = 0 := by
  unfold mmUpTo
  exact Finset.sum_eq_zero fun b _ => if_neg (Nat.not_lt_zero _)

/-- One more block adds that block's sum. -/
theorem mmUpTo_succ (A : SA.Idx → EReal) (X : SX.Idx → EReal) (r : Fin 8192) (c : Fin 128) (n : ℕ) (hn : n < 4) :
    mmUpTo A X r c (n + 1)
      = mmUpTo A X r c n + ∑ k : Fin 2048, A (ix2 r (kIdx ⟨n, hn⟩ k)) * X (ix2 (kIdx ⟨n, hn⟩ k) c) := by
  unfold mmUpTo
  have hsplit : ∀ b : Fin 4,
      (if b.val < n + 1 then ∑ k : Fin 2048, A (ix2 r (kIdx b k)) * X (ix2 (kIdx b k) c) else 0)
        = (if b.val < n then ∑ k : Fin 2048, A (ix2 r (kIdx b k)) * X (ix2 (kIdx b k) c) else 0)
          + (if b = ⟨n, hn⟩ then ∑ k : Fin 2048, A (ix2 r (kIdx b k)) * X (ix2 (kIdx b k) c) else 0) := by
    intro b
    by_cases h1 : b.val < n
    · have h2 : b.val < n + 1 := Nat.lt_succ_of_lt h1
      have h3 : ¬b = ⟨n, hn⟩ := fun e => by have := congrArg Fin.val e; dsimp only at this; omega
      rw [if_pos h1, if_pos h2, if_neg h3, add_zero]
    · by_cases h3 : b = ⟨n, hn⟩
      · have h2 : b.val < n + 1 := by rw [h3]; exact Nat.lt_succ_self n
        rw [if_neg h1, if_pos h2, if_pos h3, zero_add]
      · have h2 : ¬b.val < n + 1 := fun h => h3 (Fin.ext (by dsimp only; omega))
        rw [if_neg h1, if_neg h2, if_neg h3, add_zero]
  rw [Finset.sum_congr rfl fun b _ => hsplit b, Finset.sum_add_distrib, Finset.sum_ite_eq' Finset.univ (⟨n, hn⟩ : Fin 4),
    if_pos (Finset.mem_univ _)]

/-- All four blocks: the whole product's entry. -/
theorem mmUpTo_four (A : SA.Idx → EReal) (X : SX.Idx → EReal) (r : Fin 8192) (c : Fin 128) :
    mmUpTo A X r c 4 = mm A X r c := by
  unfold mmUpTo mm
  rw [Finset.sum_congr rfl fun (b : Fin 4) _ => if_pos b.isLt]
  rw [← Equiv.sum_comp kEquiv fun j : Fin 8192 => A (ix2 r j) * X (ix2 j c), Fintype.sum_prod_type]
  rfl

end Cert.Spec

end
-- ==== Proof.KI.R0.Val.lean ====
/-
  What region 0 leaves in its output array, over the extended reals: one layer of Spec applied to the two arrays its
  input windows read. Point t = 4·i + k reads rows 1024·i.. of A and columns 2048·k.. of A against rows 2048·k.. of the right
  operand; after it the accumulator holds the partial products over column blocks 0..k (by induction on the point); the
  write-back after k = 3 stores rows 1024·i.. of the layer, and the eight write-backs cover the array.
-/
import proofs.«164028_j19327352832008_1_alg».proof.Proof.KI.R0.Pay
import proofs.«164028_j19327352832008_1_alg».proof.Proof.SpecLaws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem val0_N (t : Fin cfg0.N) : t.val < 32 := lt_of_lt_of_eq t.isLt (show cfg0.N = 32 from N_0)

/-- The index maps over the grid: point t = 4·i + k reads block (i, k) of A, block (k, 0) of the right operand, and
    writes block (i, 0) of the output. -/
theorem val0_idxA : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem val0_idxX : ∀ t : Fin cfg0.N, win0_1.index t 0 = t.val % 4 ∧ win0_1.index t 1 = 0 :=
  (by decide +kernel : ∀ t : Fin grid0.N, win0_1.index t 0 = t.val % 4 ∧ win0_1.index t 1 = 0)
theorem val0_idxO : ∀ t : Fin cfg0.N, win0_2.index t 0 = t.val / 4 ∧ win0_2.index t 1 = 0 :=
  (by decide +kernel : ∀ t : Fin grid0.N, win0_2.index t 0 = t.val / 4 ∧ win0_2.index t 1 = 0)

variable (V : (c : Dev nD) → (b : Ref sig .tc) → Buf (Elt Ideal) ((c : Thread nD τ).loc b))

/-- The A block of point t at (p, k): row 1024·(t/4) + p, column 2048·(t%4) + k of A. -/
theorem val0_blkA (c : Dev nD) (t : Fin cfg0.N) (p : Fin 1024) (k : Fin 2048) :
    (iblk0 V c 0 t : Vec Ideal S1024x2048 .f32) (ix2 p k)
      = (V c main_arg0 : Spec.SA.Idx → EReal) (ix2 ⟨1024 * (t.val / 4) + p.val, by have := val0_N t; have := p.isLt; omega⟩ (Spec.kIdx ⟨t.val % 4, Nat.mod_lt _ (by decide)⟩ k)) := by
  have hi := val0_idxA t
  unfold iblk0
  rw [View.read_apply]
  show (V c main_arg0 : Spec.SA.Idx → EReal) _ = (V c main_arg0 : Spec.SA.Idx → EReal) _
  congr 1
  funext a
  apply Fin.ext
  match a with
  | ⟨0, _⟩ =>
    show win0_0.index t 0 * 1024 + 1 * p.val = 1024 * (t.val / 4) + p.val
    rw [hi.1]; omega
  | ⟨1, _⟩ =>
    show win0_0.index t 1 * 2048 + 1 * k.val = 2048 * (t.val % 4) + k.val
    rw [hi.2]; omega

/-- The right operand's block of point t at (k, q): row 2048·(t%4) + k, column q. -/
theorem val0_blkX (c : Dev nD) (t : Fin cfg0.N) (k : Fin 2048) (q : Fin 128) :
    (iblk0 V c 1 t : Vec Ideal S2048x128 .f32) (ix2 k q)
      = (V c main_v0 : Spec.SX.Idx → EReal) (ix2 (Spec.kIdx ⟨t.val % 4, Nat.mod_lt _ (by decide)⟩ k) q) := by
  have hi := val0_idxX t
  unfold iblk0
  rw [View.read_apply]
  show (V c main_v0 : Spec.SX.Idx → EReal) _ = (V c main_v0 : Spec.SX.Idx → EReal) _
  congr 1
  funext a
  apply Fin.ext
  match a with
  | ⟨0, _⟩ =>
    show win0_1.index t 0 * 2048 + 1 * k.val = 2048 * (t.val % 4) + k.val
    rw [hi.1]; omega
  | ⟨1, _⟩ =>
    show win0_1.index t 1 * 128 + 1 * q.val = q.val
    rw [hi.2]; omega

/-- The partial product depends on the row and the block count only through their values. -/
theorem val0_congr (A : Spec.SA.Idx → EReal) (X : Spec.SX.Idx → EReal) {r r' : Fin 8192} (q : Fin 128) {m m' : ℕ}
    (hr : r.val = r'.val) (hm : m = m') : Spec.mmUpTo A X r q m = Spec.mmUpTo A X r' q m' := by
  obtain rfl : r = r' := Fin.ext hr
  subst hm
  rfl

/-- One point's step at (p, q): if the two blocks read A's row r against column block b and the right operand's row block b,
    and the accumulator held the partial product over the first b blocks, it now holds that over the first b + 1. -/
theorem val0_step (A : Spec.SA.Idx → EReal) (X : Spec.SX.Idx → EReal) (x0 : Vec Ideal S1024x2048 .f32) (x1 : Vec Ideal S2048x128 .f32)
    (xs : Vec Ideal S1024x128 .f32) (r : Fin 8192) (b : Fin 4) (p : Fin 1024) (q : Fin 128)
    (h0 : ∀ k : Fin 2048, x0 (ix2 p k) = A (ix2 r (Spec.kIdx b k)))
    (h1 : ∀ k : Fin 2048, x1 (ix2 k q) = X (ix2 (Spec.kIdx b k) q))
    (hs : xs (ix2 p q) = Spec.mmUpTo A X r q b.val) :
    k0_pay2 (F := Ideal) x0 x1 xs (ix2 p q) = Spec.mmUpTo A X r q (b.val + 1) := by
  rw [val0_pay2, hs, Spec.mmUpTo_succ A X r q b.val b.isLt]
  exact congrArg _ (Finset.sum_congr rfl fun k _ => by rw [h0 k, h1 k])

/-- After point n the accumulator holds, at (p, q), the partial product over the first n%4 + 1 column blocks, for row 1024·(n/4) + p. -/
theorem val0_acc (c : Dev nD) (n : ℕ) (hn : n < cfg0.N) (p : Fin 1024) (q : Fin 128) :
    accAt0 (F := Ideal) V c n hn (ix2 p q)
      = Spec.mmUpTo (V c main_arg0) (V c main_v0) ⟨1024 * (n / 4) + p.val, by have := val0_N ⟨n, hn⟩; have := p.isLt; dsimp only at *; omega⟩ q (n % 4 + 1) := by
  induction n using Nat.strong_induction_on with
  | _ n ih =>
    have hN := val0_N ⟨n, hn⟩
    have hp := p.isLt
    dsimp only at hN
    by_cases h0 : n % 4 = 0
    · -- k = 0: the accumulator is reset, then one block is added
      have h1 : ¬n % 4 = 3 := by omega
      rw [accAt0_A V c ⟨n, hn⟩ h0 h1]
      refine (congrFun (val0_sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (iblk0 V c 0 ⟨n, hn⟩) (iblk0 V c 1 ⟨n, hn⟩)) (ix2 p q)).trans ?_
      exact val0_step (V c main_arg0) (V c main_v0) (iblk0 V c 0 ⟨n, hn⟩) (iblk0 V c 1 ⟨n, hn⟩) (k0_pay1 (F := Ideal))
        ⟨1024 * (n / 4) + p.val, by omega⟩ ⟨n % 4, Nat.mod_lt _ (by decide)⟩ p q
        (fun k => val0_blkA V c ⟨n, hn⟩ p k) (fun k => val0_blkX V c ⟨n, hn⟩ k q)
        ((val0_pay1 p q).trans ((Spec.mmUpTo_zero _ _ _ _).symm.trans (val0_congr _ _ q rfl h0.symm)))
    · have hprev : n - 1 < n := by omega
      have hs : accAt0 (F := Ideal) V c (n - 1) (Nat.lt_of_le_of_lt (Nat.sub_le _ _) hn) (ix2 p q)
          = Spec.mmUpTo (V c main_arg0) (V c main_v0) ⟨1024 * (n / 4) + p.val, by omega⟩ q (n % 4) :=
        (ih (n - 1) hprev _).trans (val0_congr _ _ q (by dsimp only; omega) (by omega))
      by_cases h1 : n % 4 = 3
      · -- k = 3: one more block is added (and the output block is stored)
        rw [accAt0_C V c ⟨n, hn⟩ h0 h1]
        refine (congrFun (val0_sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (iblk0 V c 0 ⟨n, hn⟩) (iblk0 V c 1 ⟨n, hn⟩) (accAt0 V c (n - 1) (Nat.lt_of_le_of_lt (Nat.sub_le _ _) hn))) (ix2 p q)).trans ?_
        exact val0_step (V c main_arg0) (V c main_v0) (iblk0 V c 0 ⟨n, hn⟩) (iblk0 V c 1 ⟨n, hn⟩) (accAt0 V c (n - 1) (Nat.lt_of_le_of_lt (Nat.sub_le _ _) hn))
          ⟨1024 * (n / 4) + p.val, by omega⟩ ⟨n % 4, Nat.mod_lt _ (by decide)⟩ p q
          (fun k => val0_blkA V c ⟨n, hn⟩ p k) (fun k => val0_blkX V c ⟨n, hn⟩ k q) hs
      · -- k = 1, 2: one more block is added
        rw [accAt0_B V c ⟨n, hn⟩ h0 h1]
        refine (congrFun (val0_sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h)) (iblk0 V c 0 ⟨n, hn⟩) (iblk0 V c 1 ⟨n, hn⟩) (accAt0 V c (n - 1) (Nat.lt_of_le_of_lt (Nat.sub_le _ _) hn))) (ix2 p q)).trans ?_
        exact val0_step (V c main_arg0) (V c main_v0) (iblk0 V c 0 ⟨n, hn⟩) (iblk0 V c 1 ⟨n, hn⟩) (accAt0 V c (n - 1) (Nat.lt_of_le_of_lt (Nat.sub_le _ _) hn))
          ⟨1024 * (n / 4) + p.val, by omega⟩ ⟨n % 4, Nat.mod_lt _ (by decide)⟩ p q
          (fun k => val0_blkA V c ⟨n, hn⟩ p k) (fun k => val0_blkX V c ⟨n, hn⟩ k q) hs

/-- After a point with k = 3 the output block holds, at (p, q), the layer's entry at row 1024·(t/4) + p: the stored block is
    the accumulator after that point, half-clamped, and that accumulator holds all four blocks' sum, the whole product's entry. -/
theorem val0_outAt (c : Dev nD) (t : Fin cfg0.N) (h3 : t.val % 4 = 3) (p : Fin 1024) (q : Fin 128) :
    outAt0 (F := Ideal) V c t (ix2 p q)
      = Spec.layerAt (V c main_arg0) (V c main_v0) ⟨1024 * (t.val / 4) + p.val, by have := val0_N t; have := p.isLt; omega⟩ q := by
  have h0 : ¬t.val % 4 = 0 := by omega
  have hacc : out0_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk0 V c 0 t) (iblk0 V c 1 t) (accAt0 V c (t.val - 1) (Nat.lt_of_le_of_lt (Nat.sub_le _ _) t.isLt))
      = k0_pay3 (F := Ideal) (accAt0 (F := Ideal) V c t.val t.isLt) :=
    (val0_out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk0 V c 0 t) (iblk0 V c 1 t) (accAt0 V c (t.val - 1) (Nat.lt_of_le_of_lt (Nat.sub_le _ _) t.isLt))).trans
      (congrArg (k0_pay3 (F := Ideal)) ((accAt0_C V c t h0 h3).trans
        (val0_sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk0 V c 0 t) (iblk0 V c 1 t) (accAt0 V c (t.val - 1) (Nat.lt_of_le_of_lt (Nat.sub_le _ _) t.isLt)))).symm)
  rw [outAt0_C V c t h0 h3]
  refine (congrFun hacc (ix2 p q)).trans ?_
  rw [val0_pay3, val0_acc V c t.val t.isLt p q]
  rw [(val0_congr (V c main_arg0) (V c main_v0) q rfl (show t.val % 4 + 1 = 4 by omega)).trans (Spec.mmUpTo_four _ _ _ _)]
  rfl

/-- Region 0 leaves one layer in its output array. -/
theorem arr_final0 (c : Dev nD) :
    (dat0 (F := Ideal) V c).arrAt 2 cfg0.N = Spec.layer (V c main_arg0) (V c main_v0) := by
  refine (dat0 (F := Ideal) V c).arrAt_eq_of_cover 2 (Spec.layer (V c main_arg0) (V c main_v0)) (fun t hf => ?_) (fun i => ?_)
  · -- what a write-back writes is its block of the layer: rows 1024·(t/4).. of it
    have h3 : t.val % 4 = 3 := (flush0_2 t).mp hf
    have hN := val0_N t
    have hi := val0_idxO t
    show (cfg0.win 2).cut (grid0.coords t) ((dat0 (F := Ideal) V c).after 2 t) = _
    rw [after0_2]
    funext y
    have hy0 : (y 0 : ℕ) < 1024 := (y 0).isLt
    have hy1 : (y 1 : ℕ) < 128 := (y 1).isLt
    have hemb : (((cfg0.win 2).blk t).view.emb y : Spec.SX.Idx)
        = ix2 (⟨1024 * (t.val / 4) + (y 0 : ℕ), by omega⟩ : Fin 8192) (⟨(y 1 : ℕ), hy1⟩ : Fin 128) := by
      funext a
      apply Fin.ext
      match a with
      | ⟨0, _⟩ =>
        show win0_2.index t 0 * 1024 + 1 * (y 0 : ℕ) = 1024 * (t.val / 4) + (y 0 : ℕ)
        rw [hi.1]; omega
      | ⟨1, _⟩ =>
        show win0_2.index t 1 * 128 + 1 * (y 1 : ℕ) = (y 1 : ℕ)
        rw [hi.2]; omega
    have hx : ((cfg0.win 2).xinj (grid0.coords t) y : S1024x128.Idx)
        = ix2 (⟨(y 0 : ℕ), hy0⟩ : Fin 1024) (⟨(y 1 : ℕ), hy1⟩ : Fin 128) := by
      funext a
      match a with
      | ⟨0, _⟩ => rfl
      | ⟨1, _⟩ => rfl
    rw [View.read_apply]
    show outAt0 (F := Ideal) V c t ((cfg0.win 2).xinj (grid0.coords t) y)
      = Spec.layer (V c main_arg0) (V c main_v0) (((cfg0.win 2).blk t).view.emb y)
    refine (congrArg (outAt0 (F := Ideal) V c t) hx).trans ?_
    refine (val0_outAt V c t h3 _ _).trans ?_
    exact (Spec.layer_apply _ _ _ _).symm.trans (congrArg (Spec.layer (V c main_arg0) (V c main_v0)) hemb.symm)
  · -- row r of the array is written back after point 4·(r/1024) + 3
    have hi0 : (i 0 : ℕ) < 8192 := (i 0).isLt
    have hi1 : (i 1 : ℕ) < 128 := (i 1).isLt
    have hN : cfg0.N = 32 := N_0
    obtain ⟨t, ht⟩ : ∃ t : Fin cfg0.N, t.val = 4 * ((i 0 : ℕ) / 1024) + 3 := ⟨⟨4 * ((i 0 : ℕ) / 1024) + 3, by rw [hN]; omega⟩, rfl⟩
    have hi := val0_idxO t
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t 0 * 1024 ≤ (i 0 : ℕ) ∧ (i 0 : ℕ) < win0_2.index t 0 * 1024 + 1024
      rw [hi.1]; omega
    | ⟨1, _⟩ =>
      show win0_2.index t 1 * 128 ≤ (i 1 : ℕ) ∧ (i 1 : ℕ) < win0_2.index t 1 * 128 + 128
      rw [hi.2]; omega

end Cert.KernelIdeal.Val

end
-- ==== Proof.KI.R1.Pay.lean ====
/-
  What the body's stores hold, as values. The pieces each case's run found are read back as the skeleton's payloads:
  the accumulator after a point is `acc + (A block)·(right block)` (over zeros at k = 0), and at k = 3 the output block is
  that accumulator with its left 64 columns clamped below at zero. Then each payload at an index, over the extended reals:
  a matmul into a zero accumulator is a plain sum over the 2048 contracted positions, a change of float format is the identity.
-/
import proofs.«164028_j19327352832008_1_alg».proof.Proof.KI.R1.Data
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The zero offsets, as a constant function. -/
private theorem hz0 : (![0, 0] : Fin 2 → Nat) = fun _ => 0 := funext fun a => by fin_cases a <;> rfl

section
variable {F : FTy → Type} [FloatOps F]

/-- After a point with k = 0 the accumulator holds zeros + (A block)·(right block). -/
theorem val1_sout_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i) (x0 : Vec F S1024x2048 .f32) (x1 : Vec F S2048x128 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S1024x128) hz0, View.readCov_unit_zero (S := S1024x128) _ hz0]
  simp only [View.readAt_eq_ld, harg2.read_unread, harg3.read_unread, View.ld_unit_zero (S := S1024x2048) hz0, View.ld_unit_zero (S := S2048x128) hz0, View.ld_unit_zero (S := S1024x128) hz0]

/-- After a point with k = 1 or 2 it holds what it held + (A block)·(right block). -/
theorem val1_sout_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i) (x0 : Vec F S1024x2048 .f32) (x1 : Vec F S2048x128 .f32) (xs0 : Vec F S1024x128 .f32) :
    sout1_B c i arg2 harg2 arg3 harg3 arg4 harg4 arg5 harg5 hc0 hc1 x0 x1 xs0 = k1_pay2 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  rw [View.canon_unit_zero hz0]
  simp only [View.readAt_eq_ld, harg2.read_unread, harg3.read_unread, harg5.read_unread, View.ld_unit_zero (S := S1024x2048) hz0, View.ld_unit_zero (S := S2048x128) hz0, View.ld_unit_zero (S := S1024x128) hz0]

/-- The same after a point with k = 3; -/
theorem val1_sout_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) :
    sout1_C c i arg2 harg2 arg3 harg3 arg4 harg4 arg5 harg5 hc0 hc1 x0 x1 xs0 = k1_pay2 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero hz0]
  simp only [View.readAt_eq_ld, harg2.read_unread, harg3.read_unread, harg5.read_unread, View.ld_unit_zero (S := S1024x2048) hz0, View.ld_unit_zero (S := S2048x128) hz0, View.ld_unit_zero (S := S1024x128) hz0]

/-- and the output block then holds that accumulator, half-clamped. -/
theorem val1_out_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i) (x0 : Vec F S1024x2048 .f32) (x1 : Vec F S2048x128 .f32) (xs0 : Vec F S1024x128 .f32) :
    out1_C c i arg2 harg2 arg3 harg3 arg4 harg4 arg5 harg5 hc0 hc1 x0 x1 xs0 = k1_pay3 (k1_pay2 x0 x1 xs0) := by
  unfold out1_C
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero hz0, View.readCov_unit_zero (S := S1024x128) _ hz0]
  simp only [View.readAt_eq_ld, harg2.read_unread, harg3.read_unread, harg5.read_unread, View.ld_unit_zero (S := S1024x2048) hz0, View.ld_unit_zero (S := S2048x128) hz0, View.ld_unit_zero (S := S1024x128) hz0]

end

/-! ## The payloads at an index, over the extended reals -/

/-! The matmul contracts axis 1 of the left block against axis 0 of the right block: at output index `i` and contraction
    position `q` the left operand is read at (i₀, q) and the right operand at (q, i₁). -/

private theorem lhs0_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl

private theorem lhs0_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q

private theorem rhs0_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q

private theorem rhs0_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

theorem val1_pay1 (p : Fin 1024) (q : Fin 128) : k1_pay1 (F := Ideal) (ix2 p q) = 0 := by
  -- a broadcast of the zero word, through a shape cast to the same shape
  unfold k1_pay1
  simp only [shapeCast_self]
  exact Ideal.ofBits_zero_f32

theorem val1_pay2 (x0 : Vec Ideal S1024x2048 .f32) (x1 : Vec Ideal S2048x128 .f32) (xs : Vec Ideal S1024x128 .f32) (p : Fin 1024) (q : Fin 128) :
    k1_pay2 (F := Ideal) x0 x1 xs (ix2 p q) = xs (ix2 p q) + ∑ k : Fin 2048, x0 (ix2 p k) * x1 (ix2 k q) := by
  unfold k1_pay2
  simp only [shapeCast_self]
  -- the sum of the accumulator and the product, at the index
  refine (addf_apply _ _ _).trans ?_
  refine congrArg (xs (ix2 p q) + ·) ?_
  -- the product into a zero accumulator is the sum over the contraction index,
  refine (Ideal.matmul_constant_zero_apply dot_S1024x2048_S2048x128_S1024x128_1_0_0_1_n_n none _ _ (ix2 p q)).trans ?_
  -- re-indexed by the one contracted coordinate
  refine (Equiv.sum_comp (contrEquiv1 dot_S1024x2048_S2048x128_S1024x128_1_0_0_1_n_n 2048 rfl rfl).symm _).symm.trans ?_
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs0_0 _ _
    | ⟨1, _⟩ => exact (lhs0_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs0_0 _ _).trans hk
    | ⟨1, _⟩ => exact rhs0_1 _ _)
  -- a change of float format is the identity on extended reals
  show x0 (dot_S1024x2048_S2048x128_S1024x128_1_0_0_1_n_n.lhsIdx (ix2 p q) ((contrEquiv1 dot_S1024x2048_S2048x128_S1024x128_1_0_0_1_n_n 2048 rfl rfl).symm k)) * x1 (dot_S1024x2048_S2048x128_S1024x128_1_0_0_1_n_n.rhsIdx (ix2 p q) ((contrEquiv1 dot_S1024x2048_S2048x128_S1024x128_1_0_0_1_n_n 2048 rfl rfl).symm k)) = _
  rw [el, er]

theorem val1_pay3 (v : Vec Ideal S1024x128 .f32) (p : Fin 1024) (q : Fin 128) :
    k1_pay3 (F := Ideal) v (ix2 p q) = if q.val < 64 then max (v (ix2 p q)) 0 else v (ix2 p q) := by
  unfold k1_pay3
  by_cases hq : q.val < 64
  · -- a left column: the first piece, the clamped left half
    rw [if_pos hq]
    refine (concatenate_pair_apply_left (1 : Fin S1024x128.rank) _ _ concatenates_S1024x64_S1024x64_S1024x128_d1 (ix2 p q) rfl
      (ix2 p (⟨q.val, hq⟩ : Fin 64)) (fun b => ?_)).trans ?_
    · match b with
      | ⟨0, _⟩ => rfl
      | ⟨1, _⟩ => rfl
    · refine (maximumf_apply _ _ _).trans ?_
      rw [slice2_axis1_apply 0 v slices_S1024x128_o0_0_S1024x64 p (⟨q.val, hq⟩ : Fin 64) q (Nat.zero_add _).symm]
      exact congrArg (max (v (ix2 p q))) Ideal.ofBits_zero_f32
  · -- a right column: the second piece, the right half as it is, 64 columns along
    rw [if_neg hq]
    have hq' : q.val - 64 < 64 := by have := q.isLt; omega
    refine (concatenate_pair_apply_right (1 : Fin S1024x128.rank) _ _ concatenates_S1024x64_S1024x64_S1024x128_d1 (ix2 p q) rfl rfl
      (ix2 p (⟨q.val - 64, hq'⟩ : Fin 64)) (fun b hb => ?_) ?_).trans ?_
    · match b with
      | ⟨0, _⟩ => rfl
      | ⟨1, _⟩ => exact absurd rfl hb
    · show q.val - 64 + 64 = q.val
      omega
    · exact slice2_axis1_apply 64 v slices_S1024x128_o0_64_S1024x64 p (⟨q.val - 64, hq'⟩ : Fin 64) q (by show q.val = 64 + (q.val - 64); omega)

end Cert.KernelIdeal.Val

end
-- ==== Proof.KI.R1.Val.lean ====
/-
  What region 0 leaves in its output array, over the extended reals: one layer of Spec applied to the two arrays its
  input windows read. Point t = 4·i + k reads rows 1024·i.. of A and columns 2048·k.. of A against rows 2048·k.. of the right
  operand; after it the accumulator holds the partial products over column blocks 0..k (by induction on the point); the
  write-back after k = 3 stores rows 1024·i.. of the layer, and the eight write-backs cover the array.
-/
import proofs.«164028_j19327352832008_1_alg».proof.Proof.KI.R1.Pay
import proofs.«164028_j19327352832008_1_alg».proof.Proof.SpecLaws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem val1_N (t : Fin cfg1.N) : t.val < 32 := lt_of_lt_of_eq t.isLt (show cfg1.N = 32 from N_1)

/-- The index maps over the grid: point t = 4·i + k reads block (i, k) of A, block (k, 0) of the right operand, and
    writes block (i, 0) of the output. -/
theorem val1_idxA : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem val1_idxX : ∀ t : Fin cfg1.N, win1_1.index t 0 = t.val % 4 ∧ win1_1.index t 1 = 0 :=
  (by decide +kernel : ∀ t : Fin grid1.N, win1_1.index t 0 = t.val % 4 ∧ win1_1.index t 1 = 0)
theorem val1_idxO : ∀ t : Fin cfg1.N, win1_2.index t 0 = t.val / 4 ∧ win1_2.index t 1 = 0 :=
  (by decide +kernel : ∀ t : Fin grid1.N, win1_2.index t 0 = t.val / 4 ∧ win1_2.index t 1 = 0)

variable (V : (c : Dev nD) → (b : Ref sig .tc) → Buf (Elt Ideal) ((c : Thread nD τ).loc b))

/-- The A block of point t at (p, k): row 1024·(t/4) + p, column 2048·(t%4) + k of A. -/
theorem val1_blkA (c : Dev nD) (t : Fin cfg1.N) (p : Fin 1024) (k : Fin 2048) :
    (iblk1 V c 0 t : Vec Ideal S1024x2048 .f32) (ix2 p k)
      = (V c main_arg0 : Spec.SA.Idx → EReal) (ix2 ⟨1024 * (t.val / 4) + p.val, by have := val1_N t; have := p.isLt; omega⟩ (Spec.kIdx ⟨t.val % 4, Nat.mod_lt _ (by decide)⟩ k)) := by
  have hi := val1_idxA t
  unfold iblk1
  rw [View.read_apply]
  show (V c main_arg0 : Spec.SA.Idx → EReal) _ = (V c main_arg0 : Spec.SA.Idx → EReal) _
  congr 1
  funext a
  apply Fin.ext
  match a with
  | ⟨0, _⟩ =>
    show win1_0.index t 0 * 1024 + 1 * p.val = 1024 * (t.val / 4) + p.val
    rw [hi.1]; omega
  | ⟨1, _⟩ =>
    show win1_0.index t 1 * 2048 + 1 * k.val = 2048 * (t.val % 4) + k.val
    rw [hi.2]; omega

/-- The right operand's block of point t at (k, q): row 2048·(t%4) + k, column q. -/
theorem val1_blkX (c : Dev nD) (t : Fin cfg1.N) (k : Fin 2048) (q : Fin 128) :
    (iblk1 V c 1 t : Vec Ideal S2048x128 .f32) (ix2 k q)
      = (V c main_v1 : Spec.SX.Idx → EReal) (ix2 (Spec.kIdx ⟨t.val % 4, Nat.mod_lt _ (by decide)⟩ k) q) := by
  have hi := val1_idxX t
  unfold iblk1
  rw [View.read_apply]
  show (V c main_v1 : Spec.SX.Idx → EReal) _ = (V c main_v1 : Spec.SX.Idx → EReal) _
  congr 1
  funext a
  apply Fin.ext
  match a with
  | ⟨0, _⟩ =>
    show win1_1.index t 0 * 2048 + 1 * k.val = 2048 * (t.val % 4) + k.val
    rw [hi.1]; omega
  | ⟨1, _⟩ =>
    show win1_1.index t 1 * 128 + 1 * q.val = q.val
    rw [hi.2]; omega

/-- The partial product depends on the row and the block count only through their values. -/
theorem val1_congr (A : Spec.SA.Idx → EReal) (X : Spec.SX.Idx → EReal) {r r' : Fin 8192} (q : Fin 128) {m m' : ℕ}
    (hr : r.val = r'.val) (hm : m = m') : Spec.mmUpTo A X r q m = Spec.mmUpTo A X r' q m' := by
  obtain rfl : r = r' := Fin.ext hr
  subst hm
  rfl

/-- One point's step at (p, q): if the two blocks read A's row r against column block b and the right operand's row block b,
    and the accumulator held the partial product over the first b blocks, it now holds that over the first b + 1. -/
theorem val1_step (A : Spec.SA.Idx → EReal) (X : Spec.SX.Idx → EReal) (x0 : Vec Ideal S1024x2048 .f32) (x1 : Vec Ideal S2048x128 .f32)
    (xs : Vec Ideal S1024x128 .f32) (r : Fin 8192) (b : Fin 4) (p : Fin 1024) (q : Fin 128)
    (h0 : ∀ k : Fin 2048, x0 (ix2 p k) = A (ix2 r (Spec.kIdx b k)))
    (h1 : ∀ k : Fin 2048, x1 (ix2 k q) = X (ix2 (Spec.kIdx b k) q))
    (hs : xs (ix2 p q) = Spec.mmUpTo A X r q b.val) :
    k1_pay2 (F := Ideal) x0 x1 xs (ix2 p q) = Spec.mmUpTo A X r q (b.val + 1) := by
  rw [val1_pay2, hs, Spec.mmUpTo_succ A X r q b.val b.isLt]
  exact congrArg _ (Finset.sum_congr rfl fun k _ => by rw [h0 k, h1 k])

/-- After point n the accumulator holds, at (p, q), the partial product over the first n%4 + 1 column blocks, for row 1024·(n/4) + p. -/
theorem val1_acc (c : Dev nD) (n : ℕ) (hn : n < cfg1.N) (p : Fin 1024) (q : Fin 128) :
    accAt1 (F := Ideal) V c n hn (ix2 p q)
      = Spec.mmUpTo (V c main_arg0) (V c main_v1) ⟨1024 * (n / 4) + p.val, by have := val1_N ⟨n, hn⟩; have := p.isLt; dsimp only at *; omega⟩ q (n % 4 + 1) := by
  induction n using Nat.strong_induction_on with
  | _ n ih =>
    have hN := val1_N ⟨n, hn⟩
    have hp := p.isLt
    dsimp only at hN
    by_cases h0 : n % 4 = 0
    · -- k = 0: the accumulator is reset, then one block is added
      have h1 : ¬n % 4 = 3 := by omega
      rw [accAt1_A V c ⟨n, hn⟩ h0 h1]
      refine (congrFun (val1_sout_A (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) ((hcond1_0 ⟨n, hn⟩).mpr h0) (fun h => h1 ((hcond1_1 ⟨n, hn⟩).mp h)) (iblk1 V c 0 ⟨n, hn⟩) (iblk1 V c 1 ⟨n, hn⟩)) (ix2 p q)).trans ?_
      exact val1_step (V c main_arg0) (V c main_v1) (iblk1 V c 0 ⟨n, hn⟩) (iblk1 V c 1 ⟨n, hn⟩) (k1_pay1 (F := Ideal))
        ⟨1024 * (n / 4) + p.val, by omega⟩ ⟨n % 4, Nat.mod_lt _ (by decide)⟩ p q
        (fun k => val1_blkA V c ⟨n, hn⟩ p k) (fun k => val1_blkX V c ⟨n, hn⟩ k q)
        ((val1_pay1 p q).trans ((Spec.mmUpTo_zero _ _ _ _).symm.trans (val1_congr _ _ q rfl h0.symm)))
    · have hprev : n - 1 < n := by omega
      have hs : accAt1 (F := Ideal) V c (n - 1) (Nat.lt_of_le_of_lt (Nat.sub_le _ _) hn) (ix2 p q)
          = Spec.mmUpTo (V c main_arg0) (V c main_v1) ⟨1024 * (n / 4) + p.val, by omega⟩ q (n % 4) :=
        (ih (n - 1) hprev _).trans (val1_congr _ _ q (by dsimp only; omega) (by omega))
      by_cases h1 : n % 4 = 3
      · -- k = 3: one more block is added (and the output block is stored)
        rw [accAt1_C V c ⟨n, hn⟩ h0 h1]
        refine (congrFun (val1_sout_C (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) ((hcond1_1 ⟨n, hn⟩).mpr h1) (iblk1 V c 0 ⟨n, hn⟩) (iblk1 V c 1 ⟨n, hn⟩) (accAt1 V c (n - 1) (Nat.lt_of_le_of_lt (Nat.sub_le _ _) hn))) (ix2 p q)).trans ?_
        exact val1_step (V c main_arg0) (V c main_v1) (iblk1 V c 0 ⟨n, hn⟩) (iblk1 V c 1 ⟨n, hn⟩) (accAt1 V c (n - 1) (Nat.lt_of_le_of_lt (Nat.sub_le _ _) hn))
          ⟨1024 * (n / 4) + p.val, by omega⟩ ⟨n % 4, Nat.mod_lt _ (by decide)⟩ p q
          (fun k => val1_blkA V c ⟨n, hn⟩ p k) (fun k => val1_blkX V c ⟨n, hn⟩ k q) hs
      · -- k = 1, 2: one more block is added
        rw [accAt1_B V c ⟨n, hn⟩ h0 h1]
        refine (congrFun (val1_sout_B (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (accAt1 V c (n - 1) (Nat.lt_of_le_of_lt (Nat.sub_le _ _) hn))) (ix2 p q)).trans ?_
        exact val1_step (V c main_arg0) (V c main_v1) (iblk1 V c 0 ⟨n, hn⟩) (iblk1 V c 1 ⟨n, hn⟩) (accAt1 V c (n - 1) (Nat.lt_of_le_of_lt (Nat.sub_le _ _) hn))
          ⟨1024 * (n / 4) + p.val, by omega⟩ ⟨n % 4, Nat.mod_lt _ (by decide)⟩ p q
          (fun k => val1_blkA V c ⟨n, hn⟩ p k) (fun k => val1_blkX V c ⟨n, hn⟩ k q) hs

/-- After a point with k = 3 the output block holds, at (p, q), the layer's entry at row 1024·(t/4) + p: the stored block is
    the accumulator after that point, half-clamped, and that accumulator holds all four blocks' sum, the whole product's entry. -/
theorem val1_outAt (c : Dev nD) (t : Fin cfg1.N) (h3 : t.val % 4 = 3) (p : Fin 1024) (q : Fin 128) :
    outAt1 (F := Ideal) V c t (ix2 p q)
      = Spec.layerAt (V c main_arg0) (V c main_v1) ⟨1024 * (t.val / 4) + p.val, by have := val1_N t; have := p.isLt; omega⟩ q := by
  have h0 : ¬t.val % 4 = 0 := by omega
  have hacc : out1_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (accAt1 V c (t.val - 1) (Nat.lt_of_le_of_lt (Nat.sub_le _ _) t.isLt))
      = k1_pay3 (F := Ideal) (accAt1 (F := Ideal) V c t.val t.isLt) :=
    (val1_out_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (accAt1 V c (t.val - 1) (Nat.lt_of_le_of_lt (Nat.sub_le _ _) t.isLt))).trans
      (congrArg (k1_pay3 (F := Ideal)) ((accAt1_C V c t h0 h3).trans
        (val1_sout_C (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h3) (iblk1 V c 0 t) (iblk1 V c 1 t) (accAt1 V c (t.val - 1) (Nat.lt_of_le_of_lt (Nat.sub_le _ _) t.isLt)))).symm)
  rw [outAt1_C V c t h0 h3]
  refine (congrFun hacc (ix2 p q)).trans ?_
  rw [val1_pay3, val1_acc V c t.val t.isLt p q]
  rw [(val1_congr (V c main_arg0) (V c main_v1) q rfl (show t.val % 4 + 1 = 4 by omega)).trans (Spec.mmUpTo_four _ _ _ _)]
  rfl

/-- Region 0 leaves one layer in its output array. -/
theorem arr_final1 (c : Dev nD) :
    (dat1 (F := Ideal) V c).arrAt 2 cfg1.N = Spec.layer (V c main_arg0) (V c main_v1) := by
  refine (dat1 (F := Ideal) V c).arrAt_eq_of_cover 2 (Spec.layer (V c main_arg0) (V c main_v1)) (fun t hf => ?_) (fun i => ?_)
  · -- what a write-back writes is its block of the layer: rows 1024·(t/4).. of it
    have h3 : t.val % 4 = 3 := (flush1_2 t).mp hf
    have hN := val1_N t
    have hi := val1_idxO t
    show (cfg1.win 2).cut (grid1.coords t) ((dat1 (F := Ideal) V c).after 2 t) = _
    rw [after1_2]
    funext y
    have hy0 : (y 0 : ℕ) < 1024 := (y 0).isLt
    have hy1 : (y 1 : ℕ) < 128 := (y 1).isLt
    have hemb : (((cfg1.win 2).blk t).view.emb y : Spec.SX.Idx)
        = ix2 (⟨1024 * (t.val / 4) + (y 0 : ℕ), by omega⟩ : Fin 8192) (⟨(y 1 : ℕ), hy1⟩ : Fin 128) := by
      funext a
      apply Fin.ext
      match a with
      | ⟨0, _⟩ =>
        show win1_2.index t 0 * 1024 + 1 * (y 0 : ℕ) = 1024 * (t.val / 4) + (y 0 : ℕ)
        rw [hi.1]; omega
      | ⟨1, _⟩ =>
        show win1_2.index t 1 * 128 + 1 * (y 1 : ℕ) = (y 1 : ℕ)
        rw [hi.2]; omega
    have hx : ((cfg1.win 2).xinj (grid1.coords t) y : S1024x128.Idx)
        = ix2 (⟨(y 0 : ℕ), hy0⟩ : Fin 1024) (⟨(y 1 : ℕ), hy1⟩ : Fin 128) := by
      funext a
      match a with
      | ⟨0, _⟩ => rfl
      | ⟨1, _⟩ => rfl
    rw [View.read_apply]
    show outAt1 (F := Ideal) V c t ((cfg1.win 2).xinj (grid1.coords t) y)
      = Spec.layer (V c main_arg0) (V c main_v1) (((cfg1.win 2).blk t).view.emb y)
    refine (congrArg (outAt1 (F := Ideal) V c t) hx).trans ?_
    refine (val1_outAt V c t h3 _ _).trans ?_
    exact (Spec.layer_apply _ _ _ _).symm.trans (congrArg (Spec.layer (V c main_arg0) (V c main_v1)) hemb.symm)
  · -- row r of the array is written back after point 4·(r/1024) + 3
    have hi0 : (i 0 : ℕ) < 8192 := (i 0).isLt
    have hi1 : (i 1 : ℕ) < 128 := (i 1).isLt
    have hN : cfg1.N = 32 := N_1
    obtain ⟨t, ht⟩ : ∃ t : Fin cfg1.N, t.val = 4 * ((i 0 : ℕ) / 1024) + 3 := ⟨⟨4 * ((i 0 : ℕ) / 1024) + 3, by rw [hN]; omega⟩, rfl⟩
    have hi := val1_idxO t
    refine ⟨t, (flush1_2 t).mpr (by omega), ?_⟩
    show i ∈ ((View.whole main_v2).slice (win1_2.rect t)).set
    rw [View.set_slice_whole, Rect.mem_set_unit]
    intro a
    match a with
    | ⟨0, _⟩ =>
      show win1_2.index t 0 * 1024 ≤ (i 0 : ℕ) ∧ (i 0 : ℕ) < win1_2.index t 0 * 1024 + 1024
      rw [hi.1]; omega
    | ⟨1, _⟩ =>
      show win1_2.index t 1 * 128 ≤ (i 1 : ℕ) ∧ (i 1 : ℕ) < win1_2.index t 1 * 128 + 128
      rw [hi.2]; omega

end Cert.KernelIdeal.Val

end
-- ==== Proof.Cat.lean ====
/-
  Joining two 8192×64 arrays along their second axis gives the side-by-side array of Spec: entry (r, c) of the joined
  array is the left array's (r, c) when c < 64 and the right array's (r, c − 64) otherwise.
-/
import proofs.«164028_j19327352832008_1_alg».proof.Proof.Spec
import Idealize.ShloMosaic.Lib.Pipeline.Value
import Idealize.ShloMosaic.Lib.ValueIdx

noncomputable section

namespace Cert.Spec

open Idealize.ShloMosaic Idealize.ShloMosaic.ValueIdx

/-- Joining two 8192×64 arrays along axis 1 is `cat`: a column below 64 falls in the first piece, at the same
    coordinates; a column from 64 on falls in the second piece, 64 columns to the left. -/
theorem concat_eq
    (h : Shape.Concatenates [(⟨2, ![8192, 64]⟩ : Shape), ⟨2, ![8192, 64]⟩] ⟨2, ![8192, 128]⟩ 1)
    (a b : SH.Idx → EReal) :
    (concatenate (⟨2, ![8192, 128]⟩ : Shape) 1 [⟨⟨2, ![8192, 64]⟩, a⟩, ⟨⟨2, ![8192, 64]⟩, b⟩] h : SX.Idx → EReal)
      = cat a b := by
  funext j
  obtain ⟨r, c, rfl⟩ : ∃ (r : Fin 8192) (c : Fin 128), j = ix2 r c := ⟨j 0, j 1, eq_ix2 j⟩
  rw [cat_apply]
  unfold catAt
  by_cases hc : c.val < 64
  · rw [dif_pos hc]
    exact concatenate_pair_apply_left 1 a b h (ix2 r c) rfl (ix2 r ⟨c.val, hc⟩)
      (fun d => by match d with | ⟨0, _⟩ => rfl | ⟨1, _⟩ => rfl)
  · rw [dif_neg hc]
    exact concatenate_pair_apply_right 1 a b h (ix2 r c) rfl rfl
      (ix2 r ⟨c.val - 64, by have := c.isLt; omega⟩)
      (fun d hd => by
        match d, hd with
        | ⟨0, _⟩, _ => rfl
        | ⟨1, _⟩, hd => exact absurd rfl hd)
      (by show (c.val - 64) + 64 = c.val; omega)

end Cert.Spec

end
-- ==== Proof.KI.Value.lean ====
/-
  The idealized kernel's result: region 1 leaves one layer of (A, what region 0 left); region 0 leaves one layer of
  (A, the two feature arrays side by side); so the result array ends at the two-layer network of the arguments.
-/
import proofs.«164028_j19327352832008_1_alg».proof.Proof.KI.Run
import proofs.«164028_j19327352832008_1_alg».proof.Proof.KI.R0.Val
import proofs.«164028_j19327352832008_1_alg».proof.Proof.KI.R1.Val
import proofs.«164028_j19327352832008_1_alg».proof.Proof.Spec
import proofs.«164028_j19327352832008_1_alg».proof.Proof.Cat

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- What region 1's write-backs leave is the network of the three arguments: each region's output array is one layer of
    its two input arrays, the adjacency array reaches both regions as launched, region 1's right operand is region 0's
    output, and region 0's is the concatenation of the two feature arrays. -/
theorem result_eq (c : Dev nD) :
    (dat1 (F := Ideal) (V2 m) c).arrAt 2 cfg1.N
      = Cert.Spec.net (m ((c.tc : Thread nD τ).loc main_arg0)) (m ((c.tc : Thread nD τ).loc main_arg1)) (m ((c.tc : Thread nD τ).loc main_arg2)) := by
  rw [arr_final1 (V2 m) c, V2_main_arg0 m c, V2_main_v1 m c, arr_final0 (V1 m) c, V1_main_arg0 m c, V1_main_v0 m c, Cert.Spec.concat_eq]
  rfl

end Cert.KernelIdeal.Val

end
-- ==== Proof.Ref.lean ====
/-
  The reference's result, over the extended reals: relu(A·relu(A·F)) beside A·(A·NF), which is the two-layer network
  of Spec over the two feature arrays laid side by side.
-/
import proofs.«164028_j19327352832008_1_alg».proof.Defs
import proofs.«164028_j19327352832008_1_alg».proof.Proof.Gen.ReferenceIdeal.Run
import proofs.«164028_j19327352832008_1_alg».proof.Proof.Gen.ReferenceIdeal.Read
import proofs.«164028_j19327352832008_1_alg».proof.Proof.Spec
import proofs.«164028_j19327352832008_1_alg».proof.Proof.Cat
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen
open Idealize.ShloMosaic.ValueIdx

/-! ## The product against an 8192×64 right operand -/

/-- Entry (r, c) of the product of A with an 8192×64 array. -/
def mmH (A : Cert.Spec.SA.Idx → EReal) (X : Cert.Spec.SH.Idx → EReal) (r : Fin 8192) (c : Fin 64) : EReal :=
  ∑ k : Fin 8192, A (ix2 r k) * X (ix2 k c)

/-- The product against an 8192×128 array reads only column c of it: if that column is column c' of an 8192×64
    array, the entry is the narrower product's. -/
theorem mm_eq_mmH (A : Cert.Spec.SA.Idx → EReal) (X : Cert.Spec.SX.Idx → EReal) (Y : Cert.Spec.SH.Idx → EReal)
    (r : Fin 8192) (c : Fin 128) (c' : Fin 64) (h : ∀ k : Fin 8192, X (ix2 k c) = Y (ix2 k c')) :
    Cert.Spec.mm A X r c = mmH A Y r c' := by
  unfold Cert.Spec.mm mmH
  exact Finset.sum_congr rfl fun k _ => by rw [h k]

/-! ## The reference's stages at an entry

Each `dot_general` of the reference contracts A's second axis with the right operand's first: its entry (r, c) is the
sum over k of A(r, k) times the right operand's (k, c). Each `relu` is the maximum with the zero array. -/

section Stages
variable (A : (⟨S8192x8192, .f32⟩ : BufTy).Contents (Elt Ideal)) (X : (⟨S8192x64, .f32⟩ : BufTy).Contents (Elt Ideal))
  (r : Fin 8192) (c : Fin 64)

/-- The first layer's product, A·X, at (r, c). -/
theorem v0_at : Read.val_main_v0 (F := Ideal) A X (ix2 r c) = mmH A X r c := by
  rw [Read.val_main_v0_apply]
  unfold mmH
  refine Finset.sum_congr rfl fun k _ => ?_
  have hl : Read.lidx_main_v0 (ix2 r c) k = ix2 r k := funext fun a => by match a with | ⟨0, _⟩ => rfl | ⟨1, _⟩ => rfl
  have hr : Read.ridx_main_v0 (ix2 r c) k = ix2 k c := funext fun a => by match a with | ⟨0, _⟩ => rfl | ⟨1, _⟩ => rfl
  rw [hl, hr]

/-- The zero array of the first relu, at any entry. -/
theorem zero0_at : Read.val_main_call0_v0 (F := Ideal) (ix2 r c) = (0 : EReal) := by
  rw [Read.val_main_call0_v0_apply, Read.val_main_call0_cst_apply, Ideal.ofBits_def, Ideal.ofBits_zero_f32]

/-- The first layer's left half, relu(A·X), at (r, c). -/
theorem v1_at : Read.val_main_v1 (F := Ideal) A X (ix2 r c) = max (mmH A X r c) 0 := by
  rw [Read.val_main_v1_apply, Ideal.maximumf_def, v0_at, zero0_at]

/-- The first layer's right half, A·X, at (r, c). -/
theorem v2_at : Read.val_main_v2 (F := Ideal) A X (ix2 r c) = mmH A X r c := by
  rw [Read.val_main_v2_apply]
  unfold mmH
  refine Finset.sum_congr rfl fun k _ => ?_
  have hl : Read.lidx_main_v2 (ix2 r c) k = ix2 r k := funext fun a => by match a with | ⟨0, _⟩ => rfl | ⟨1, _⟩ => rfl
  have hr : Read.ridx_main_v2 (ix2 r c) k = ix2 k c := funext fun a => by match a with | ⟨0, _⟩ => rfl | ⟨1, _⟩ => rfl
  rw [hl, hr]

/-- The second layer's product over the first layer's left half, at (r, c). -/
theorem v3_at : Read.val_main_v3 (F := Ideal) A X (ix2 r c) = mmH A (Read.val_main_v1 (F := Ideal) A X) r c := by
  rw [Read.val_main_v3_apply]
  unfold mmH
  refine Finset.sum_congr rfl fun k _ => ?_
  have hl : Read.lidx_main_v3 (ix2 r c) k = ix2 r k := funext fun a => by match a with | ⟨0, _⟩ => rfl | ⟨1, _⟩ => rfl
  have hr : Read.ridx_main_v3 (ix2 r c) k = ix2 k c := funext fun a => by match a with | ⟨0, _⟩ => rfl | ⟨1, _⟩ => rfl
  rw [hl, hr]

/-- The zero array of the second relu, at any entry. -/
theorem zero1_at : Read.val_main_call1_v0 (F := Ideal) (ix2 r c) = (0 : EReal) := by
  rw [Read.val_main_call1_v0_apply, Read.val_main_call1_cst_apply, Ideal.ofBits_def, Ideal.ofBits_zero_f32]

/-- The result's left half, relu(A·relu(A·X)), at (r, c). -/
theorem v4_at : Read.val_main_v4 (F := Ideal) A X (ix2 r c)
    = max (mmH A (Read.val_main_v1 (F := Ideal) A X) r c) 0 := by
  rw [Read.val_main_v4_apply, Ideal.maximumf_def, v3_at, zero1_at]

/-- The result's right half, A·(A·X), at (r, c). -/
theorem v5_at : Read.val_main_v5 (F := Ideal) A X (ix2 r c) = mmH A (Read.val_main_v2 (F := Ideal) A X) r c := by
  rw [Read.val_main_v5_apply]
  unfold mmH
  refine Finset.sum_congr rfl fun k _ => ?_
  have hl : Read.lidx_main_v5 (ix2 r c) k = ix2 r k := funext fun a => by match a with | ⟨0, _⟩ => rfl | ⟨1, _⟩ => rfl
  have hr : Read.ridx_main_v5 (ix2 r c) k = ix2 k c := funext fun a => by match a with | ⟨0, _⟩ => rfl | ⟨1, _⟩ => rfl
  rw [hl, hr]

end Stages

/-! ## The network of Spec at an entry -/

section Net
variable (A : Cert.Spec.SA.Idx → EReal) (Fe NF : Cert.Spec.SH.Idx → EReal) (r : Fin 8192) (c : Fin 128)

/-- In the left 64 columns a layer is the product clamped below at zero. -/
theorem layer_left (X : Cert.Spec.SX.Idx → EReal) (hc : c.val < 64) :
    Cert.Spec.layer A X (ix2 r c) = max (Cert.Spec.mm A X r c) 0 := by
  rw [Cert.Spec.layer_apply]; unfold Cert.Spec.layerAt; rw [if_pos hc]

/-- In the right 64 columns a layer is the product. -/
theorem layer_right (X : Cert.Spec.SX.Idx → EReal) (hc : ¬ c.val < 64) :
    Cert.Spec.layer A X (ix2 r c) = Cert.Spec.mm A X r c := by
  rw [Cert.Spec.layer_apply]; unfold Cert.Spec.layerAt; rw [if_neg hc]

/-- Column c < 64 of the two arrays side by side is column c of the left one. -/
theorem cat_left (hc : c.val < 64) : Cert.Spec.cat Fe NF (ix2 r c) = Fe (ix2 r ⟨c.val, hc⟩) := by
  rw [Cert.Spec.cat_apply]; unfold Cert.Spec.catAt; rw [dif_pos hc]

/-- Column c ≥ 64 of the two arrays side by side is column c − 64 of the right one. -/
theorem cat_right (hc : ¬ c.val < 64) :
    Cert.Spec.cat Fe NF (ix2 r c) = NF (ix2 r ⟨c.val - 64, by have := c.isLt; omega⟩) := by
  rw [Cert.Spec.cat_apply]; unfold Cert.Spec.catAt; rw [dif_neg hc]

end Net

/-! ## The reference's result is the network -/

section Result
variable (A : (⟨S8192x8192, .f32⟩ : BufTy).Contents (Elt Ideal)) (Fe NF : (⟨S8192x64, .f32⟩ : BufTy).Contents (Elt Ideal))
  (r : Fin 8192) (c : Fin 128)

/-- In the left 64 columns the network is relu(A·relu(A·F)): both layers clamp, and both read only the left feature
    array. -/
theorem net_left_at (hc : c.val < 64) :
    Cert.Spec.net A Fe NF (ix2 r c) = Read.val_main_v4 (F := Ideal) A Fe (ix2 r ⟨c.val, hc⟩) := by
  rw [v4_at]
  unfold Cert.Spec.net
  refine (layer_left A r c _ hc).trans ?_
  refine congrArg (fun x => max x 0) (mm_eq_mmH A _ _ r c ⟨c.val, hc⟩ fun k => ?_)
  rw [v1_at, layer_left A k c _ hc]
  exact congrArg (fun x => max x 0) (mm_eq_mmH A _ _ k c ⟨c.val, hc⟩ fun k' => cat_left Fe NF k' c hc)

/-- In the right 64 columns the network is A·(A·NF): neither layer clamps, and both read only the right feature
    array, at column c − 64. -/
theorem net_right_at (hc : ¬ c.val < 64) :
    Cert.Spec.net A Fe NF (ix2 r c)
      = Read.val_main_v5 (F := Ideal) A NF (ix2 r ⟨c.val - 64, by have := c.isLt; omega⟩) := by
  rw [v5_at]
  unfold Cert.Spec.net
  refine (layer_right A r c _ hc).trans ?_
  refine mm_eq_mmH A _ _ r c ⟨c.val - 64, by have := c.isLt; omega⟩ fun k => ?_
  rw [v2_at, layer_right A k c _ hc]
  exact mm_eq_mmH A _ _ k c ⟨c.val - 64, by have := c.isLt; omega⟩ fun k' => cat_right Fe NF k' c hc

/-- The reference's result term is the network of Spec. -/
theorem result_eq : Read.val_main_v6 (F := Ideal) A Fe NF = Cert.Spec.net A Fe NF := by
  unfold Read.val_main_v6
  refine (Cert.Spec.concat_eq _ _ _).trans ?_
  funext j
  obtain ⟨r, c, rfl⟩ : ∃ (r : Fin 8192) (c : Fin 128), j = ix2 r c := ⟨j 0, j 1, eq_ix2 j⟩
  by_cases hc : c.val < 64
  · rw [cat_left _ _ r c hc, net_left_at A Fe NF r c hc]
  · rw [cat_right _ _ r c hc, net_right_at A Fe NF r c hc]

end Result

/-- The composed term of the reference's eleven operations, at any three arrays, is the network of Spec. -/
theorem run_term_eq (x0 : (⟨S8192x8192, .f32⟩ : BufTy).Contents (Elt Ideal))
    (x1 x2 : (⟨S8192x64, .f32⟩ : BufTy).Contents (Elt Ideal)) :
    concatenate S8192x128 1 [⟨S8192x64, (maximumf (F := Ideal) (Host.dotGeneral (F := Ideal) (φ₁ := .f32) (φ₂ := .f32) dot_S8192x8192_S8192x64_S8192x64_1_0_0_1_n_n none (x0) (maximumf (F := Ideal) (Host.dotGeneral (F := Ideal) (φ₁ := .f32) (φ₂ := .f32) dot_S8192x8192_S8192x64_S8192x64_1_0_0_1_n_n none (x0) (x1)) (broadcastInDim S8192x64 ![] bcast_S_S8192x64 (constant (F := Ideal) S_ .f32 0x00000000#32)))) (broadcastInDim S8192x64 ![] bcast_S_S8192x64 (constant (F := Ideal) S_ .f32 0x00000000#32)))⟩, ⟨S8192x64, (Host.dotGeneral (F := Ideal) (φ₁ := .f32) (φ₂ := .f32) dot_S8192x8192_S8192x64_S8192x64_1_0_0_1_n_n none (x0) (Host.dotGeneral (F := Ideal) (φ₁ := .f32) (φ₂ := .f32) dot_S8192x8192_S8192x64_S8192x64_1_0_0_1_n_n none (x0) (x2)))⟩] concatenates_S8192x64_S8192x64_S8192x128_d1
      = Cert.Spec.net x0 x1 x2 :=
  (Read.val_main_v6_eq (F := Ideal) x0 x1 x2).trans (result_eq x0 x1 x2)

/-- The same at the arguments' launch contents on a device: the term the reference's run states for its result. -/
theorem run_post_eq (m : (ℓ : Loc nD τ sig) → Buf (Elt Ideal) ℓ) (c : Dev nD) :
    concatenate S8192x128 1 [⟨S8192x64, (maximumf (F := Ideal) (Host.dotGeneral (F := Ideal) (φ₁ := .f32) (φ₂ := .f32) dot_S8192x8192_S8192x64_S8192x64_1_0_0_1_n_n none (m ((c.tc : Thread nD τ).loc main_arg0)) (maximumf (F := Ideal) (Host.dotGeneral (F := Ideal) (φ₁ := .f32) (φ₂ := .f32) dot_S8192x8192_S8192x64_S8192x64_1_0_0_1_n_n none (m ((c.tc : Thread nD τ).loc main_arg0)) (m ((c.tc : Thread nD τ).loc main_arg1))) (broadcastInDim S8192x64 ![] bcast_S_S8192x64 (constant (F := Ideal) S_ .f32 0x00000000#32)))) (broadcastInDim S8192x64 ![] bcast_S_S8192x64 (constant (F := Ideal) S_ .f32 0x00000000#32)))⟩, ⟨S8192x64, (Host.dotGeneral (F := Ideal) (φ₁ := .f32) (φ₂ := .f32) dot_S8192x8192_S8192x64_S8192x64_1_0_0_1_n_n none (m ((c.tc : Thread nD τ).loc main_arg0)) (Host.dotGeneral (F := Ideal) (φ₁ := .f32) (φ₂ := .f32) dot_S8192x8192_S8192x64_S8192x64_1_0_0_1_n_n none (m ((c.tc : Thread nD τ).loc main_arg0)) (m ((c.tc : Thread nD τ).loc main_arg2))))⟩] concatenates_S8192x64_S8192x64_S8192x128_d1
      = Cert.Spec.net (m ((c.tc : Thread nD τ).loc main_arg0)) (m ((c.tc : Thread nD τ).loc main_arg1)) (m ((c.tc : Thread nD τ).loc main_arg2)) :=
  run_term_eq _ _ _

end Cert.ReferenceIdeal.RefValue

end
-- ==== Proof.lean ====
/-
  The certificate's claim. Both printed kernel programs (the word-level one and its idealization: the same text, the ideal
  pass rewrote nothing) run one host concatenation and two matmul-with-half-relu regions; each region accumulates
  A·X over four column blocks into a scratch carried from grid point to grid point and stores the half-clamped result at
  the last. Their frames are proved from the regions' body runs through the several-regions launch; the reference's frame is
  its run. Over the extended reals the kernel's result is the two-layer network of Spec, and so is the reference's:
  blocked and whole sums agree since addition is commutative and associative there.
-/
import proofs.«164028_j19327352832008_1_alg».proof.Defs
import proofs.«164028_j19327352832008_1_alg».proof.Proof.Gen.Kernel
import proofs.«164028_j19327352832008_1_alg».proof.Proof.Gen.KernelIdeal
import proofs.«164028_j19327352832008_1_alg».proof.Proof.Gen.ReferenceIdeal
import proofs.«164028_j19327352832008_1_alg».proof.Proof.Gen.Pre_finite_inputs
import proofs.«164028_j19327352832008_1_alg».proof.Proof.Gen.ReferenceIdeal.Run
import proofs.«164028_j19327352832008_1_alg».proof.Proof.K.Run
import proofs.«164028_j19327352832008_1_alg».proof.Proof.KI.Run
import proofs.«164028_j19327352832008_1_alg».proof.Proof.KI.Value
import proofs.«164028_j19327352832008_1_alg».proof.Proof.Ref
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the network of Spec over the three arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Val.result_eq m c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.run_post_eq m' c).trans ?_
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
